-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v33) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S262144x1 : Shape := ⟨2, ![262144, 1]⟩
abbrev S1x128 : Shape := ⟨2, ![1, 128]⟩
abbrev S128x128 : Shape := ⟨2, ![128, 128]⟩
abbrev S128 : Shape := ⟨1, ![128]⟩
abbrev S128x1 : Shape := ⟨2, ![128, 1]⟩
abbrev S_ : Shape := ⟨0, ![]⟩

class Facts : Prop where
  bcast_S_S262144x1 : S_.BroadcastsInDim S262144x1 (![] : Fin 0 → Fin S262144x1.rank)
  reducesTo_S262144x1_S_d0_1 : S262144x1.ReducesTo [0, 1] S_
  h_S_ : 0 < S_.numel
  bcast_S_S1x128 : S_.BroadcastsInDim S1x128 (![] : Fin 0 → Fin S1x128.rank)
  reducesTo_S1x128_S_d0_1 : S1x128.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x1 : S_.BroadcastsInDim S128x1 (![] : Fin 0 → Fin S128x1.rank)
  reducesTo_S128x1_S_d0_1 : S128x1.ReducesTo [0, 1] S_

variable [Facts]

def fn_part2 {F : FTy → Type} [FloatOps F] (main_arg7 : FVec F S128x128 .f32) (main_arg8 : FVec F S128 .f32) (main_arg9 : FVec F S128x1 .f32) (main_v33 : IVec S_ 1) : IVec S_ 1 :=
  let main_v34 : FVec F S128x128 .f32 := Host.absf main_arg7
  let main_cst_12 : FVec F S_ .f32 := constant S_ .f32 0x7F800000#32
  let main_v35 : FVec F S128x128 .f32 := broadcastInDim S128x128 ![] bcast_S_S128x128 main_cst_12
  let main_v36 : IVec S128x128 1 := cmpf .olt main_v34 main_v35
  let main_c_13 : IVec S_ 1 := constantI S_ 1 1#1
  let main_v37 : IVec S_ 1 := (fun x v => Host.reduce IntOp.andi x v reducesTo_S128x128_S_d0_1 h_S_) main_v36 main_c_13
  let main_v38 : IVec S_ 1 := andi main_v33 main_v37
  let main_v39 : FVec F S128 .f32 := Host.absf main_arg8
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128x1 .f32 := Host.absf main_arg9
  let main_cst_16 : FVec F S_ .f32 := constant S_ .f32 0x7F800000#32
  let main_v45 : FVec F S128x1 .f32 := broadcastInDim S128x1 ![] bcast_S_S128x1 main_cst_16
  let main_v46 : IVec S128x1 1 := cmpf .olt main_v44 main_v45
  let main_c_17 : IVec S_ 1 := constantI S_ 1 1#1
  let main_v47 : IVec S_ 1 := (fun x v => Host.reduce IntOp.andi x v reducesTo_S128x1_S_d0_1 h_S_) main_v46 main_c_17
  let main_v48 : IVec S_ 1 := andi main_v43 main_v47
  main_v48

def fn_part1 {F : FTy → Type} [FloatOps F] (main_arg4 : FVec F S128 .f32) (main_arg5 : FVec F S128x128 .f32) (main_arg6 : FVec F S128 .f32) (main_arg7 : FVec F S128x128 .f32) (main_arg8 : FVec F S128 .f32) (main_arg9 : FVec F S128x1 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg4
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg5
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg6
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg7 main_arg8 main_arg9 main_v33

def fn {F : FTy → Type} [FloatOps F] (main_arg0 : FVec F S262144x1 .f32) (main_arg1 : FVec F S1x128 .f32) (main_arg2 : FVec F S1x128 .f32) (main_arg3 : FVec F S128x128 .f32) (main_arg4 : FVec F S128 .f32) (main_arg5 : FVec F S128x128 .f32) (main_arg6 : FVec F S128 .f32) (main_arg7 : FVec F S128x128 .f32) (main_arg8 : FVec F S128 .f32) (main_arg9 : FVec F S128x1 .f32) : IVec S_ 1 :=
  let main_v0 : FVec F S262144x1 .f32 := Host.absf main_arg0
  let main_cst : FVec F S_ .f32 := constant S_ .f32 0x7F800000#32
  let main_v1 : FVec F S262144x1 .f32 := broadcastInDim S262144x1 ![] bcast_S_S262144x1 main_cst
  let main_v2 : IVec S262144x1 1 := cmpf .olt main_v0 main_v1
  let main_c : IVec S_ 1 := constantI S_ 1 1#1
  let main_v3 : IVec S_ 1 := (fun x v => Host.reduce IntOp.andi x v reducesTo_S262144x1_S_d0_1 h_S_) main_v2 main_c
  let main_v4 : FVec F S1x128 .f32 := Host.absf main_arg1
  let main_cst_0 : FVec F S_ .f32 := constant S_ .f32 0x7F800000#32
  let main_v5 : FVec F S1x128 .f32 := broadcastInDim S1x128 ![] bcast_S_S1x128 main_cst_0
  let main_v6 : IVec S1x128 1 := cmpf .olt main_v4 main_v5
  let main_c_1 : IVec S_ 1 := constantI S_ 1 1#1
  let main_v7 : IVec S_ 1 := (fun x v => Host.reduce IntOp.andi x v reducesTo_S1x128_S_d0_1 h_S_) main_v6 main_c_1
  let main_v8 : IVec S_ 1 := andi main_v3 main_v7
  let main_v9 : FVec F S1x128 .f32 := Host.absf main_arg2
  let main_cst_2 : FVec F S_ .f32 := constant S_ .f32 0x7F800000#32
  let main_v10 : FVec F S1x128 .f32 := broadcastInDim S1x128 ![] bcast_S_S1x128 main_cst_2
  let main_v11 : IVec S1x128 1 := cmpf .olt main_v9 main_v10
  let main_c_3 : IVec S_ 1 := constantI S_ 1 1#1
  let main_v12 : IVec S_ 1 := (fun x v => Host.reduce IntOp.andi x v reducesTo_S1x128_S_d0_1 h_S_) main_v11 main_c_3
  let main_v13 : IVec S_ 1 := andi main_v8 main_v12
  let main_v14 : FVec F S128x128 .f32 := Host.absf main_arg3
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg4 main_arg5 main_arg6 main_arg7 main_arg8 main_arg9 main_v13 main_v16
-- ==== Kernel.lean ====
abbrev S262144x1 : Shape := ⟨2, ![262144, 1]⟩
abbrev S1x128 : Shape := ⟨2, ![1, 128]⟩
abbrev S128x128 : Shape := ⟨2, ![128, 128]⟩
abbrev S128 : Shape := ⟨1, ![128]⟩
abbrev S128x1 : Shape := ⟨2, ![128, 1]⟩
abbrev S8192x1 : Shape := ⟨2, ![8192, 1]⟩
abbrev S8192x128 : Shape := ⟨2, ![8192, 128]⟩
abbrev S8192 : Shape := ⟨1, ![8192]⟩

abbrev nBuf : Space → Nat
  | .hbm => 18
  | .vmem => 13
  | .smem => 0
  | _ => 0

abbrev bufTy : (tb : Table) → Fin (tcTables nBuf tb) → BufTy
  | .hbm, ⟨0, _⟩ => ⟨S262144x1, .f32⟩
  | .hbm, ⟨1, _⟩ => ⟨S1x128, .f32⟩
  | .hbm, ⟨2, _⟩ => ⟨S1x128, .f32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S128, .f32⟩
  | .hbm, ⟨9, _⟩ => ⟨S128x1, .f32⟩
  | .hbm, ⟨10, _⟩ => ⟨S128x128, .f32⟩
  | .hbm, ⟨11, _⟩ => ⟨S128x128, .f32⟩
  | .hbm, ⟨12, _⟩ => ⟨S128x128, .f32⟩
  | .hbm, ⟨13, _⟩ => ⟨S1x128, .f32⟩
  | .hbm, ⟨14, _⟩ => ⟨S1x128, .f32⟩
  | .hbm, ⟨15, _⟩ => ⟨S1x128, .f32⟩
  | .hbm, ⟨16, _⟩ => ⟨S1x128, .f32⟩
  | .hbm, ⟨17, _⟩ => ⟨S262144x1, .f32⟩
  | .local _ .vmem, ⟨0, _⟩ => ⟨S8192x1, .f32⟩
  | .local _ .vmem, ⟨1, _⟩ => ⟨S8192x1, .f32⟩
  | .local _ .vmem, ⟨2, _⟩ => ⟨S1x128, .f32⟩
  | .local _ .vmem, ⟨3, _⟩ => ⟨S1x128, .f32⟩
  | .local _ .vmem, ⟨4, _⟩ => ⟨S128x128, .f32⟩
  | .local _ .vmem, ⟨5, _⟩ => ⟨S1x128, .f32⟩
  | .local _ .vmem, ⟨6, _⟩ => ⟨S128x128, .f32⟩
  | .local _ .vmem, ⟨7, _⟩ => ⟨S1x128, .f32⟩
  | .local _ .vmem, ⟨8, _⟩ => ⟨S128x128, .f32⟩
  | .local _ .vmem, ⟨9, _⟩ => ⟨S1x128, .f32⟩
  | .local _ .vmem, ⟨10, _⟩ => ⟨S1x128, .f32⟩
  | .local _ .vmem, ⟨11, _⟩ => ⟨S8192x1, .f32⟩
  | .local _ .vmem, ⟨12, _⟩ => ⟨S8192x1, .f32⟩
  | _, _ => ⟨S262144x1, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg10_1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem10_1 : DmaSem sig := 12

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8192x1 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S8192x1 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

class Facts₀ : Prop where
  transposes_S128x128_S128x128_1_0 : S128x128.Transposes [1, 0] S128x128
  shapeCasts_S128_S1x128 : S128.ShapeCasts S1x128
  shapeCasts_S128x1_S1x128 : S128x1.ShapeCasts S1x128
  inb_S1x128_S1x128_0_0 : ∀ a, (![0, 0] : Fin 2 → Nat) a + S1x128.size a ≤ S1x128.size a
  h_S1x128 : 0 < S1x128.numel
  inb_S128x128_S128x128_0_0 : ∀ a, (![0, 0] : Fin 2 → Nat) a + S128x128.size a ≤ S128x128.size a
  h_S128x128 : 0 < S128x128.numel
  shapeCasts_S128x128_S128x128 : S128x128.ShapeCasts S128x128
  shapeCasts_S1x128_S1x128 : S1x128.ShapeCasts S1x128
  inb_S8192x1_S8192x1_0_0 : ∀ a, (![0, 0] : Fin 2 → Nat) a + S8192x1.size a ≤ S8192x1.size a
  h_S8192x1 : 0 < S8192x1.numel
  broadcasts_S8192x1_S8192x128 : S8192x1.Broadcasts S8192x128
  broadcasts_S1x128_S8192x128 : S1x128.Broadcasts S8192x128
  reduces_S8192x128_S8192 : S8192x128.Reduces [1] S8192
  shapeCasts_S8192_S8192x1 : S8192.ShapeCasts S8192x1
  dot_S1x128_S128x128_S1x128_1_0_0_1_n_n_wf : DotDims.WF S1x128 S128x128 S1x128 [1] [0] [0] [1] [] []
  dot_S8192x128_S128x128_S8192x128_1_0_0_1_n_n_wf : DotDims.WF S8192x128 S128x128 S8192x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8192x1.size a ≤ S262144x1.size a
  hwx0_0 : ∀ i : grid0.Coords, EltTy.bits .f32 = 32 ∨ (Rect.block (s := S262144x1) S8192x1.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x128.size a ≤ S1x128.size a
  hwx0_1 : ∀ i : grid0.Coords, EltTy.bits .f32 = 32 ∨ (Rect.block (s := S1x128) S1x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x128.size a ≤ S128x128.size a
  hwx0_5 : ∀ i : grid0.Coords, EltTy.bits .f32 = 32 ∨ (Rect.block (s := S128x128) S128x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x128.size a ≤ S1x128.size a
  hwx0_6 : ∀ i : grid0.Coords, EltTy.bits .f32 = 32 ∨ (Rect.block (s := S1x128) S1x128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S128x128.size a ≤ S128x128.size a
  hwx0_7 : ∀ i : grid0.Coords, EltTy.bits .f32 = 32 ∨ (Rect.block (s := S128x128) S128x128.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x128.size a ≤ S1x128.size a
  hwx0_8 : ∀ i : grid0.Coords, EltTy.bits .f32 = 32 ∨ (Rect.block (s := S1x128) S1x128.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1x128.size a ≤ S1x128.size a
  hwx0_9 : ∀ i : grid0.Coords, EltTy.bits .f32 = 32 ∨ (Rect.block (s := S1x128) S1x128.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S8192x1.size a ≤ S262144x1.size a
  hwx0_10 : ∀ i : grid0.Coords, EltTy.bits .f32 = 32 ∨ (Rect.block (s := S262144x1) S8192x1.size (cc0_transform_10 i) (hinb0_10 i)).WholeWords (EltTy.packing .f32)

variable [Facts₀]

def dot_S1x128_S128x128_S1x128_1_0_0_1_n_n : DotDims S1x128 S128x128 S1x128 where
  lhsContracting := [1]
  rhsContracting := [0]
  lhsNonContracting := [0]
  rhsNonContracting := [1]
  lhsBatch := []
  rhsBatch := []
  wf := dot_S1x128_S128x128_S1x128_1_0_0_1_n_n_wf
def dot_S8192x128_S128x128_S8192x128_1_0_0_1_n_n : DotDims S8192x128 S128x128 S8192x128 where
  lhsContracting := [1]
  rhsContracting := [0]
  lhsNonContracting := [0]
  rhsNonContracting := [1]
  lhsBatch := []
  rhsBatch := []
  wf := dot_S8192x128_S128x128_S8192x128_1_0_0_1_n_n_wf

abbrev win0_0 : Pipeline.Window sig grid0 :=
  Pipeline.Window.ofSpec (Memref.whole main_arg0) S8192x1.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v3) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v1) S128x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v4) S1x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v2) S128x128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v5) S1x128.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v6) S1x128.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v7) S8192x1.size cc0_transform_10 reads0_10 true false 2 stage0_10 sem0_10
    hrank0 hreads0_10 hinb0_10 nbuf0_10 (Memref.isWhole_whole _) hwx0_10 hstage0_10

abbrev win0 : Fin 11 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | ⟨_ + 11, h⟩ => absurd h (Nat.not_lt.2 (Nat.le_add_left _ _))
abbrev spec0 : Fin 11 → Pipeline.WinSpec sig grid0.rank := fun w => (win0 w).toWinSpec

class Facts : Prop extends Facts₀ where

variable [Facts]
-- ==== ReferenceIdeal.lean ====
abbrev S262144x1 : Shape := ⟨2, ![262144, 1]⟩
abbrev S1x128 : Shape := ⟨2, ![1, 128]⟩
abbrev S128x128 : Shape := ⟨2, ![128, 128]⟩
abbrev S128 : Shape := ⟨1, ![128]⟩
abbrev S128x1 : Shape := ⟨2, ![128, 1]⟩
abbrev S262144x128 : Shape := ⟨2, ![262144, 128]⟩
abbrev S_ : Shape := ⟨0, ![]⟩
abbrev S262144 : Shape := ⟨1, ![262144]⟩

abbrev nBuf : Space → Nat
  | .hbm => 51
  | .vmem => 0
  | .smem => 0
  | _ => 0

abbrev bufTy : (tb : Table) → Fin (tcTables nBuf tb) → BufTy
  | .hbm, ⟨0, _⟩ => ⟨S262144x1, .f32⟩
  | .hbm, ⟨1, _⟩ => ⟨S1x128, .f32⟩
  | .hbm, ⟨2, _⟩ => ⟨S1x128, .f32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S128, .f32⟩
  | .hbm, ⟨9, _⟩ => ⟨S128x1, .f32⟩
  | .hbm, ⟨10, _⟩ => ⟨S262144x128, .f32⟩
  | .hbm, ⟨11, _⟩ => ⟨S262144x128, .f32⟩
  | .hbm, ⟨12, _⟩ => ⟨S262144x128, .f32⟩
  | .hbm, ⟨13, _⟩ => ⟨S262144x128, .f32⟩
  | .hbm, ⟨14, _⟩ => ⟨S262144x128, .f32⟩
  | .hbm, ⟨15, _⟩ => ⟨S128x128, .f32⟩
  | .hbm, ⟨16, _⟩ => ⟨S262144x128, .f32⟩
  | .hbm, ⟨17, _⟩ => ⟨S1x128, .f32⟩
  | .hbm, ⟨18, _⟩ => ⟨S262144x128, .f32⟩
  | .hbm, ⟨19, _⟩ => ⟨S262144x128, .f32⟩
  | .hbm, ⟨20, _⟩ => ⟨S_, .f32⟩
  | .hbm, ⟨21, _⟩ => ⟨S262144x128, .f32⟩
  | .hbm, ⟨22, _⟩ => ⟨S262144x128, .f32⟩
  | .hbm, ⟨23, _⟩ => ⟨S128x128, .f32⟩
  | .hbm, ⟨24, _⟩ => ⟨S262144x128, .f32⟩
  | .hbm, ⟨25, _⟩ => ⟨S1x128, .f32⟩
  | .hbm, ⟨26, _⟩ => ⟨S262144x128, .f32⟩
  | .hbm, ⟨27, _⟩ => ⟨S262144x128, .f32⟩
  | .hbm, ⟨28, _⟩ => ⟨S_, .f32⟩
  | .hbm, ⟨29, _⟩ => ⟨S262144x128, .f32⟩
  | .hbm, ⟨30, _⟩ => ⟨S262144x128, .f32⟩
  | .hbm, ⟨31, _⟩ => ⟨S128x128, .f32⟩
  | .hbm, ⟨32, _⟩ => ⟨S262144x128, .f32⟩
  | .hbm, ⟨33, _⟩ => ⟨S1x128, .f32⟩
  | .hbm, ⟨34, _⟩ => ⟨S262144x128, .f32⟩
  | .hbm, ⟨35, _⟩ => ⟨S262144x128, .f32⟩
  | .hbm, ⟨36, _⟩ => ⟨S_, .f32⟩
  | .hbm, ⟨37, _⟩ => ⟨S262144, .f32⟩
  | .hbm, ⟨38, _⟩ => ⟨S_, .f32⟩
  | .hbm, ⟨39, _⟩ => ⟨S262144, .f32⟩
  | .hbm, ⟨40, _⟩ => ⟨S262144, .f32⟩
  | .hbm, ⟨41, _⟩ => ⟨S262144x1, .f32⟩
  | .hbm, ⟨42, _⟩ => ⟨S262144x128, .f32⟩
  | .hbm, ⟨43, _⟩ => ⟨S262144x128, .f32⟩
  | .hbm, ⟨44, _⟩ => ⟨S262144x128, .f32⟩
  | .hbm, ⟨45, _⟩ => ⟨S_, .f32⟩
  | .hbm, ⟨46, _⟩ => ⟨S262144, .f32⟩
  | .hbm, ⟨47, _⟩ => ⟨S262144x1, .f32⟩
  | .hbm, ⟨48, _⟩ => ⟨S262144x128, .f32⟩
  | .hbm, ⟨49, _⟩ => ⟨S262144x128, .f32⟩
  | .hbm, ⟨50, _⟩ => ⟨S262144x1, .f32⟩
  | _, _ => ⟨S262144x1, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_call0_cst : Ref sig .tc := ⟨.hbm, 20, rfl⟩
abbrev main_call0_v0 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_call1_cst : Ref sig .tc := ⟨.hbm, 28, rfl⟩
abbrev main_call1_v0 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_cst : Ref sig .tc := ⟨.hbm, 36, rfl⟩
abbrev main_v22 : Ref sig .tc := ⟨.hbm, 37, rfl⟩
abbrev main_cst_0 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_cst_1 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩

abbrev nD : Nat := 1
abbrev τ : Topo := Topo.v7x

variable {F : FTy → Type} [FloatOps F]

class Facts₀ : Prop where
  bcast_S1x128_S262144x128_0_1 : S1x128.BroadcastsInDim S262144x128 (![0, 1] : Fin 2 → Fin S262144x128.rank)
  bcast_S262144x1_S262144x128_0_1 : S262144x1.BroadcastsInDim S262144x128 (![0, 1] : Fin 2 → Fin S262144x128.rank)
  transposes_S128x128_S128x128_1_0 : S128x128.Transposes [1, 0] S128x128
  bcast_S128_S1x128_1 : S128.BroadcastsInDim S1x128 (![1] : Fin 1 → Fin S1x128.rank)
  bcast_S_S262144x128 : S_.BroadcastsInDim S262144x128 (![] : Fin 0 → Fin S262144x128.rank)
  reducesTo_S262144x128_S262144_d1 : S262144x128.ReducesTo [1] S262144
  h_S_ : 0 < S_.numel
  bcast_S_S262144 : S_.BroadcastsInDim S262144 (![] : Fin 0 → Fin S262144.rank)
  bcast_S262144_S262144x1_0 : S262144.BroadcastsInDim S262144x1 (![0] : Fin 1 → Fin S262144x1.rank)
  dot_S262144x128_S128x128_S262144x128_1_0_0_1_n_n_wf : DotDims.WF S262144x128 S128x128 S262144x128 [1] [0] [0] [1] [] []
  dot_S262144x128_S128x1_S262144x1_1_0_0_1_n_n_wf : DotDims.WF S262144x128 S128x1 S262144x1 [1] [0] [0] [1] [] []

variable [Facts₀]

def dot_S262144x128_S128x128_S262144x128_1_0_0_1_n_n : DotDims S262144x128 S128x128 S262144x128 where
  lhsContracting := [1]
  rhsContracting := [0]
  lhsNonContracting := [0]
  rhsNonContracting := [1]
  lhsBatch := []
  rhsBatch := []
  wf := dot_S262144x128_S128x128_S262144x128_1_0_0_1_n_n_wf
def dot_S262144x128_S128x1_S262144x1_1_0_0_1_n_n : DotDims S262144x128 S128x1 S262144x1 where
  lhsContracting := [1]
  rhsContracting := [0]
  lhsNonContracting := [0]
  rhsNonContracting := [1]
  lhsBatch := []
  rhsBatch := []
  wf := dot_S262144x128_S128x1_S262144x1_1_0_0_1_n_n_wf

class Facts : Prop extends Facts₀ where

variable [Facts]
-- ==== Proof.LibReal.lean ====
/-
  Reals inside the extended reals, and the finiteness precondition read back.

  General facts, independent of any program: the cast of a finite sum of reals; the f32 pattern of -∞; an extended
  real whose absolute value is below +∞ is a real; and one conjunct of a printed "all inputs finite" precondition —
  an and-reduce to a scalar of the elementwise test |x| < +∞ that came out 1 — makes every entry of the array a real.
-/
import Idealize.ShloMosaic.PureOps.Ideal
import Idealize.ShloMosaic.PureOps.Ideal.Laws
import Idealize.ShloMosaic.Lib.ReduceAll
import Idealize.ShloMosaic.Lib.Pipeline.Value
import Idealize.ShloMosaic.Lib.ValueIdx

noncomputable section

open scoped BigOperators

namespace Cert.LibReal

open Idealize.ShloMosaic Idealize.ShloMosaic.ValueIdx

/-- An extended real that is a real. -/
def IsReal (x : EReal) : Prop := ∃ r : ℝ, x = (r : EReal)

/-- The cast of a finite sum of reals is the sum of the casts. -/
theorem coe_sum {ι : Type*} (s : Finset ι) (f : ι → ℝ) :
    ((∑ i ∈ s, f i : ℝ) : EReal) = ∑ i ∈ s, (f i : EReal) := by
  induction s using Finset.cons_induction with
  | empty => simp
  | cons a s ha ih => rw [Finset.sum_cons, Finset.sum_cons, EReal.coe_add, ih]

/-- The f32 pattern of -∞ is the bottom of the extended reals. -/
theorem ofBits_negInf_f32 : Ideal.ofBits .f32 0xFF800000#32 = ⊥ := by simp [Ideal.ofBits, Ideal.ieee]

/-- The f32 pattern of +∞ is the top of the extended reals. -/
theorem ofBits_posInf_f32 : Ideal.ofBits .f32 0x7F800000#32 = ⊤ := by simp [Ideal.ofBits, Ideal.ieee]

/-- The scalar shape has one index. -/
instance : Subsingleton (⟨0, ![]⟩ : Shape).Idx := ⟨fun a b => funext fun d => d.elim0⟩

/-- An extended real whose absolute value is below +∞ is a real. -/
theorem isReal_of_abs_lt_top (x : EReal) (h : max x (-x) < ⊤) : IsReal x := by
  induction x using EReal.rec with
  | bot => simp at h
  | top => simp at h
  | coe r => exact ⟨r, rfl⟩

/-- One conjunct of a finiteness precondition: an and-reduce to a scalar of "|x| < +∞" that is 1 makes every entry of
    x a real, at any shape and whichever axes the reduce names. -/
theorem isReal_of_all {s : Shape} {axes : List (Fin s.rank)} (x : FVec Ideal s .f32)
    (hb : (⟨0, ![]⟩ : Shape).BroadcastsInDim s ![]) (hr : s.ReducesTo axes ⟨0, ![]⟩) (hu : 0 < (⟨0, ![]⟩ : Shape).numel)
    (e : Host.reduce IntOp.andi (cmpf .olt (Host.absf x) (broadcastInDim s ![] hb (constant (F := Ideal) ⟨0, ![]⟩ .f32 0x7F800000#32)))
      (constantI ⟨0, ![]⟩ 1 1#1) hr hu ix0 = 1#1) (i : s.Idx) : IsReal (x i) := by
  have h1 := Host.reduce_andi_all _ _ hr hu ix0 e i
  rw [cmpf_apply, broadcastInDim_apply ![] hb _ i ix0 (fun a => a.elim0)] at h1
  have h3 : Ideal.cmp .olt (max (x i) (-(x i))) (Ideal.ofBits .f32 0x7F800000#32) = 1#1 := h1
  rw [ofBits_posInf_f32] at h3
  refine isReal_of_abs_lt_top _ ?_
  by_contra hn
  unfold Ideal.cmp at h3
  simp [hn] at h3

end Cert.LibReal

end
-- ==== Proof.RowSpec.lean ====
/-
  One row of the network as arithmetic on the extended reals.

  A row has a scalar input x; the soft encoding is the affine family enc j = ew j * x + eb j over 128 bins;
  three affine layers (the first two followed by max(·, 0)) give the logits h3; the result is the softmax of the
  logits paired with the bin centres mu.  Two arrangements of this computation are compared.

  * The plain arrangement: layer 1 is applied to the encoding, Σ_j enc j * W1 k j + b1 k, and the result is
    Σ_k (e k / s) * mu k with e k = exp (h3 k - max h3), s = Σ_k e k.
  * The collapsed arrangement: since the encoding is affine in x, layer 1 is x * (Σ_j ew j * W1 k j) +
    (Σ_j eb j * W1 k j + b1 k), and the result is (Σ_k e k * mu k) / s.

  On the extended reals the two differ at infinities (distributivity fails there), so they are joined under the
  hypothesis that every input is a real: then every intermediate value is a real (sums, products, maxima and
  exponentials of reals), s is a positive real, and both identities are identities of real arithmetic.
-/
import Idealize.ShloMosaic.PureOps.Ideal
import Idealize.ShloMosaic.PureOps.Ideal.Laws
import Idealize.ShloMosaic.Lib.ValueIdx
import proofs.«142796_g72937134620845_cont_sun_m_422_3_alg».proof.Proof.LibReal

noncomputable section

open scoped BigOperators

namespace Cert.RowSpec

open Idealize.ShloMosaic Cert.LibReal

/-! ## The row's stages on the extended reals -/

/-- An affine layer at output unit k: Σ_j h j * W k j + b k (the weight matrix indexed output first). -/
def lin (h : Fin 128 → EReal) (W : Fin 128 → Fin 128 → EReal) (b : Fin 128 → EReal) (k : Fin 128) : EReal :=
  (∑ j : Fin 128, h j * W k j) + b k

/-- max(·, 0) at each unit. -/
def relu (h : Fin 128 → EReal) (k : Fin 128) : EReal := max (h k) 0

/-- The soft encoding of the scalar x: affine in x at each bin. -/
def enc (x : EReal) (ew eb : Fin 128 → EReal) (j : Fin 128) : EReal := ew j * x + eb j

/-- Layer 1 applied to the encoding, collapsed: x times the encoded slope plus the encoded offset. -/
def pre1 (x : EReal) (ew eb : Fin 128 → EReal) (W1 : Fin 128 → Fin 128 → EReal) (b1 : Fin 128 → EReal)
    (k : Fin 128) : EReal :=
  x * (∑ j : Fin 128, ew j * W1 k j) + ((∑ j : Fin 128, eb j * W1 k j) + b1 k)

/-- Layers 2 and 3 on top of layer 1's pre-activation a1. -/
def logits (a1 : Fin 128 → EReal) (W2 : Fin 128 → Fin 128 → EReal) (b2 : Fin 128 → EReal)
    (W3 : Fin 128 → Fin 128 → EReal) (b3 : Fin 128 → EReal) : Fin 128 → EReal :=
  lin (relu (lin (relu a1) W2 b2)) W3 b3

/-- The row's maximum, as the fold of max from -∞. -/
def rowMax (h : Fin 128 → EReal) : EReal := (Finset.univ : Finset (Fin 128)).fold max ⊥ h

/-- The shifted exponentials exp (h k - max h). -/
def expo (h : Fin 128 → EReal) (k : Fin 128) : EReal := Ideal.exp (h k - rowMax h)

/-- Σ_k (e k / s) * mu k: the softmax weights paired with mu. -/
def meanPlain (h mu : Fin 128 → EReal) : EReal :=
  ∑ k : Fin 128, Ideal.div (expo h k) (∑ k' : Fin 128, expo h k') * mu k

/-- (Σ_k e k * mu k) / s: one division per row. -/
def meanFused (h mu : Fin 128 → EReal) : EReal :=
  Ideal.div (∑ k : Fin 128, expo h k * mu k) (∑ k : Fin 128, expo h k)

/-- The plain arrangement of a row. -/
def outPlain (x : EReal) (ew eb : Fin 128 → EReal) (W1 : Fin 128 → Fin 128 → EReal) (b1 : Fin 128 → EReal)
    (W2 : Fin 128 → Fin 128 → EReal) (b2 : Fin 128 → EReal) (W3 : Fin 128 → Fin 128 → EReal) (b3 : Fin 128 → EReal)
    (mu : Fin 128 → EReal) : EReal :=
  meanPlain (logits (lin (enc x ew eb) W1 b1) W2 b2 W3 b3) mu

/-- The collapsed arrangement of a row. -/
def outFused (x : EReal) (ew eb : Fin 128 → EReal) (W1 : Fin 128 → Fin 128 → EReal) (b1 : Fin 128 → EReal)
    (W2 : Fin 128 → Fin 128 → EReal) (b2 : Fin 128 → EReal) (W3 : Fin 128 → Fin 128 → EReal) (b3 : Fin 128 → EReal)
    (mu : Fin 128 → EReal) : EReal :=
  meanFused (logits (pre1 x ew eb W1 b1) W2 b2 W3 b3) mu

/-! ## Reals inside the extended reals -/

/-- An affine layer of reals is a real. -/
theorem lin_coe (h : Fin 128 → ℝ) (W : Fin 128 → Fin 128 → ℝ) (b : Fin 128 → ℝ) :
    lin (fun j => (h j : EReal)) (fun k j => (W k j : EReal)) (fun k => (b k : EReal))
      = fun k => (((∑ j : Fin 128, h j * W k j) + b k : ℝ) : EReal) := by
  funext k
  unfold lin
  rw [EReal.coe_add, coe_sum]
  simp only [EReal.coe_mul]

/-- max(·, 0) of a real is a real. -/
theorem relu_coe (h : Fin 128 → ℝ) : relu (fun k => (h k : EReal)) = fun k => ((max (h k) 0 : ℝ) : EReal) := by
  funext k
  unfold relu
  rw [EReal.coe_strictMono.monotone.map_max, EReal.coe_zero]

/-- The logits over a real pre-activation and real weights are reals. -/
theorem logits_coe (a1 : Fin 128 → ℝ) (W2 : Fin 128 → Fin 128 → ℝ) (b2 : Fin 128 → ℝ) (W3 : Fin 128 → Fin 128 → ℝ)
    (b3 : Fin 128 → ℝ) :
    ∃ h3 : Fin 128 → ℝ, logits (fun k => (a1 k : EReal)) (fun k j => (W2 k j : EReal)) (fun k => (b2 k : EReal))
      (fun k j => (W3 k j : EReal)) (fun k => (b3 k : EReal)) = fun k => (h3 k : EReal) := by
  unfold logits
  rw [relu_coe, lin_coe, relu_coe, lin_coe]
  exact ⟨_, rfl⟩

/-- Over reals, layer 1 of the encoding is its collapsed form: Σ_j (ew j * x + eb j) * W1 k j distributes. -/
theorem lin_enc_coe (x : ℝ) (ew eb : Fin 128 → ℝ) (W1 : Fin 128 → Fin 128 → ℝ) (b1 : Fin 128 → ℝ) :
    ∃ a1 : Fin 128 → ℝ,
      lin (enc (x : EReal) (fun j => (ew j : EReal)) (fun j => (eb j : EReal))) (fun k j => (W1 k j : EReal))
          (fun k => (b1 k : EReal)) = (fun k => (a1 k : EReal))
      ∧ pre1 (x : EReal) (fun j => (ew j : EReal)) (fun j => (eb j : EReal)) (fun k j => (W1 k j : EReal))
          (fun k => (b1 k : EReal)) = fun k => (a1 k : EReal) := by
  refine ⟨fun k => (∑ j : Fin 128, (ew j * x + eb j) * W1 k j) + b1 k, ?_, ?_⟩
  · have : enc (x : EReal) (fun j => (ew j : EReal)) (fun j => (eb j : EReal)) = fun j => ((ew j * x + eb j : ℝ) : EReal) := by
      funext j; unfold enc; rw [EReal.coe_add, EReal.coe_mul]
    rw [this, lin_coe]
  · funext k
    have h1 : pre1 (x : EReal) (fun j => (ew j : EReal)) (fun j => (eb j : EReal)) (fun k j => (W1 k j : EReal))
        (fun k => (b1 k : EReal)) k
        = ((x * (∑ j : Fin 128, ew j * W1 k j) + ((∑ j : Fin 128, eb j * W1 k j) + b1 k) : ℝ) : EReal) := by
      unfold pre1
      rw [EReal.coe_add, EReal.coe_mul, EReal.coe_add, coe_sum, coe_sum]
      simp only [EReal.coe_mul]
    rw [h1]
    congr 1
    rw [Finset.mul_sum, ← add_assoc, ← Finset.sum_add_distrib]
    congr 1
    exact Finset.sum_congr rfl fun j _ => by ring

/-- The maximum of a row of reals is a real (one of the row's entries). -/
theorem rowMax_coe (h : Fin 128 → ℝ) : ∃ M : ℝ, rowMax (fun k => (h k : EReal)) = (M : EReal) := by
  obtain ⟨i, _, hi⟩ := Finset.exists_mem_eq_sup (Finset.univ : Finset (Fin 128)) ⟨0, Finset.mem_univ _⟩
    (fun k => (h k : EReal))
  exact ⟨h i, hi⟩

/-- Over a row of real logits and real centres: dividing each exponential by their sum and then pairing with mu is
    pairing first and dividing once, because the sum is a positive real. -/
theorem meanPlain_eq_meanFused_coe (h mu : Fin 128 → ℝ) :
    meanPlain (fun k => (h k : EReal)) (fun k => (mu k : EReal))
      = meanFused (fun k => (h k : EReal)) (fun k => (mu k : EReal)) := by
  obtain ⟨M, hM⟩ := rowMax_coe h
  have he : ∀ k, expo (fun k => (h k : EReal)) k = ((Real.exp (h k - M) : ℝ) : EReal) := by
    intro k
    unfold expo
    rw [hM, ← EReal.coe_sub, Ideal.exp_coe]
  have hS : (∑ k : Fin 128, Real.exp (h k - M)) ≠ 0 :=
    ne_of_gt (Finset.sum_pos (fun k _ => Real.exp_pos _) ⟨0, Finset.mem_univ _⟩)
  unfold meanPlain meanFused
  simp only [he]
  rw [← coe_sum]
  simp only [Ideal.div_coe hS, ← EReal.coe_mul]
  rw [← coe_sum, ← coe_sum, ← EReal.coe_mul]
  congr 1
  rw [Finset.sum_mul]
  exact Finset.sum_congr rfl fun k _ => by ring

/-! ## The two arrangements agree on reals -/

/-- THE ROW LAW: when every input is a real, the plain and the collapsed arrangement of a row agree. -/
theorem outPlain_eq_outFused (x : EReal) (ew eb : Fin 128 → EReal) (W1 : Fin 128 → Fin 128 → EReal) (b1 : Fin 128 → EReal)
    (W2 : Fin 128 → Fin 128 → EReal) (b2 : Fin 128 → EReal) (W3 : Fin 128 → Fin 128 → EReal) (b3 : Fin 128 → EReal)
    (mu : Fin 128 → EReal)
    (hx : IsReal x) (hew : ∀ j, IsReal (ew j)) (heb : ∀ j, IsReal (eb j))
    (hW1 : ∀ k j, IsReal (W1 k j)) (hb1 : ∀ k, IsReal (b1 k)) (hW2 : ∀ k j, IsReal (W2 k j)) (hb2 : ∀ k, IsReal (b2 k))
    (hW3 : ∀ k j, IsReal (W3 k j)) (hb3 : ∀ k, IsReal (b3 k)) (hmu : ∀ k, IsReal (mu k)) :
    outPlain x ew eb W1 b1 W2 b2 W3 b3 mu = outFused x ew eb W1 b1 W2 b2 W3 b3 mu := by
  obtain ⟨x', rfl⟩ := hx
  choose ew' hew' using hew
  obtain rfl : ew = fun j => (ew' j : EReal) := funext hew'
  choose eb' heb' using heb
  obtain rfl : eb = fun j => (eb' j : EReal) := funext heb'
  choose W1' hW1' using hW1
  obtain rfl : W1 = fun k j => (W1' k j : EReal) := funext fun k => funext (hW1' k)
  choose b1' hb1' using hb1
  obtain rfl : b1 = fun k => (b1' k : EReal) := funext hb1'
  choose W2' hW2' using hW2
  obtain rfl : W2 = fun k j => (W2' k j : EReal) := funext fun k => funext (hW2' k)
  choose b2' hb2' using hb2
  obtain rfl : b2 = fun k => (b2' k : EReal) := funext hb2'
  choose W3' hW3' using hW3
  obtain rfl : W3 = fun k j => (W3' k j : EReal) := funext fun k => funext (hW3' k)
  choose b3' hb3' using hb3
  obtain rfl : b3 = fun k => (b3' k : EReal) := funext hb3'
  choose mu' hmu' using hmu
  obtain rfl : mu = fun k => (mu' k : EReal) := funext hmu'
  obtain ⟨a1, hp, hf⟩ := lin_enc_coe x' ew' eb' W1' b1'
  obtain ⟨h3, hh3⟩ := logits_coe a1 W2' b2' W3' b3'
  unfold outPlain outFused
  rw [hp, hf, hh3]
  exact meanPlain_eq_meanFused_coe h3 mu'

/-! ## Rows read off the arrays

The network's arrays, at their literal shapes: x is [262144, 1] (one scalar per row), the encoder's slope and offset
are [1, 128], the weights [128, 128] (output unit first), the biases [128], the centres [128, 1]. -/

open Idealize.ShloMosaic.ValueIdx

/-- The one row of a [1, 128] array. -/
def rowOf (v : (⟨2, ![1, 128]⟩ : Shape).Idx → EReal) : Fin 128 → EReal := fun j => v (ix2 (0 : Fin 1) j)
/-- A [128, 128] array by its two coordinates. -/
def matOf (W : (⟨2, ![128, 128]⟩ : Shape).Idx → EReal) : Fin 128 → Fin 128 → EReal := fun k j => W (ix2 k j)
/-- A [128] array by its coordinate. -/
def vecOf (b : (⟨1, ![128]⟩ : Shape).Idx → EReal) : Fin 128 → EReal := fun k => b (ix1 k)
/-- The one column of a [128, 1] array. -/
def colOf (mu : (⟨2, ![128, 1]⟩ : Shape).Idx → EReal) : Fin 128 → EReal := fun k => mu (ix2 k (0 : Fin 1))

/-- The whole result array, row by row, in the plain arrangement. -/
def arrPlain (x : (⟨2, ![262144, 1]⟩ : Shape).Idx → EReal) (ew eb : (⟨2, ![1, 128]⟩ : Shape).Idx → EReal)
    (W1 : (⟨2, ![128, 128]⟩ : Shape).Idx → EReal) (b1 : (⟨1, ![128]⟩ : Shape).Idx → EReal)
    (W2 : (⟨2, ![128, 128]⟩ : Shape).Idx → EReal) (b2 : (⟨1, ![128]⟩ : Shape).Idx → EReal)
    (W3 : (⟨2, ![128, 128]⟩ : Shape).Idx → EReal) (b3 : (⟨1, ![128]⟩ : Shape).Idx → EReal)
    (mu : (⟨2, ![128, 1]⟩ : Shape).Idx → EReal) : (⟨2, ![262144, 1]⟩ : Shape).Idx → EReal :=
  fun i => outPlain (x i) (rowOf ew) (rowOf eb) (matOf W1) (vecOf b1) (matOf W2) (vecOf b2) (matOf W3) (vecOf b3) (colOf mu)

/-- The whole result array, row by row, in the collapsed arrangement. -/
def arrFused (x : (⟨2, ![262144, 1]⟩ : Shape).Idx → EReal) (ew eb : (⟨2, ![1, 128]⟩ : Shape).Idx → EReal)
    (W1 : (⟨2, ![128, 128]⟩ : Shape).Idx → EReal) (b1 : (⟨1, ![128]⟩ : Shape).Idx → EReal)
    (W2 : (⟨2, ![128, 128]⟩ : Shape).Idx → EReal) (b2 : (⟨1, ![128]⟩ : Shape).Idx → EReal)
    (W3 : (⟨2, ![128, 128]⟩ : Shape).Idx → EReal) (b3 : (⟨1, ![128]⟩ : Shape).Idx → EReal)
    (mu : (⟨2, ![128, 1]⟩ : Shape).Idx → EReal) : (⟨2, ![262144, 1]⟩ : Shape).Idx → EReal :=
  fun i => outFused (x i) (rowOf ew) (rowOf eb) (matOf W1) (vecOf b1) (matOf W2) (vecOf b2) (matOf W3) (vecOf b3) (colOf mu)

/-- THE ARRAY LAW: with every entry of every argument a real, the two arrangements give one array. -/
theorem arrPlain_eq_arrFused (x : (⟨2, ![262144, 1]⟩ : Shape).Idx → EReal) (ew eb : (⟨2, ![1, 128]⟩ : Shape).Idx → EReal)
    (W1 : (⟨2, ![128, 128]⟩ : Shape).Idx → EReal) (b1 : (⟨1, ![128]⟩ : Shape).Idx → EReal)
    (W2 : (⟨2, ![128, 128]⟩ : Shape).Idx → EReal) (b2 : (⟨1, ![128]⟩ : Shape).Idx → EReal)
    (W3 : (⟨2, ![128, 128]⟩ : Shape).Idx → EReal) (b3 : (⟨1, ![128]⟩ : Shape).Idx → EReal)
    (mu : (⟨2, ![128, 1]⟩ : Shape).Idx → EReal)
    (hx : ∀ i, IsReal (x i)) (hew : ∀ i, IsReal (ew i)) (heb : ∀ i, IsReal (eb i)) (hW1 : ∀ i, IsReal (W1 i))
    (hb1 : ∀ i, IsReal (b1 i)) (hW2 : ∀ i, IsReal (W2 i)) (hb2 : ∀ i, IsReal (b2 i)) (hW3 : ∀ i, IsReal (W3 i))
    (hb3 : ∀ i, IsReal (b3 i)) (hmu : ∀ i, IsReal (mu i)) :
    arrPlain x ew eb W1 b1 W2 b2 W3 b3 mu = arrFused x ew eb W1 b1 W2 b2 W3 b3 mu :=
  funext fun i => outPlain_eq_outFused (x i) (rowOf ew) (rowOf eb) (matOf W1) (vecOf b1) (matOf W2) (vecOf b2) (matOf W3)
    (vecOf b3) (colOf mu) (hx i) (fun _ => hew _) (fun _ => heb _) (fun _ _ => hW1 _) (fun _ => hb1 _) (fun _ _ => hW2 _)
    (fun _ => hb2 _) (fun _ _ => hW3 _) (fun _ => hb3 _) (fun _ => hmu _)

end Cert.RowSpec

end
-- ==== Proof.RefValue.lean ====
/-
  The reference program's result array is the plain arrangement of every row.

  The reference's run is read one operation at a time at an index (r, k) of the [262144, 128] activations: the soft
  encoding ew k * x r + eb k; each dot_general as the sum over the contracted coordinate, the transposed weight read
  at (k, j); each broadcast bias at k; max(·, 0) against the broadcast zero; the row maximum as the fold of max from
  -∞ over the row (the second maximum against -∞ changes nothing); the exponential of the shifted logits; their sum
  from the initial value 0; the quotient; and the final dot_general with the centres as the sum over k.
-/
import proofs.«142796_g72937134620845_cont_sun_m_422_3_alg».proof.Proof.Gen.ReferenceIdeal.Read
import proofs.«142796_g72937134620845_cont_sun_m_422_3_alg».proof.Proof.RowSpec

noncomputable section

open scoped BigOperators

namespace Cert.ReferenceIdeal.RefValue

open Cert.ReferenceIdeal Cert.ReferenceIdeal.Gen Cert.ReferenceIdeal.Read Idealize.ShloMosaic Idealize.ShloMosaic.ValueIdx
open Cert.RowSpec Cert.LibReal

variable (x0 : (⟨S262144x1, .f32⟩ : BufTy).Contents (Elt Ideal)) (x1 x2 : (⟨S1x128, .f32⟩ : BufTy).Contents (Elt Ideal))
  (x3 : (⟨S128x128, .f32⟩ : BufTy).Contents (Elt Ideal)) (x4 : (⟨S128, .f32⟩ : BufTy).Contents (Elt Ideal))
  (x5 : (⟨S128x128, .f32⟩ : BufTy).Contents (Elt Ideal)) (x6 : (⟨S128, .f32⟩ : BufTy).Contents (Elt Ideal))
  (x7 : (⟨S128x128, .f32⟩ : BufTy).Contents (Elt Ideal)) (x8 : (⟨S128, .f32⟩ : BufTy).Contents (Elt Ideal))
  (x9 : (⟨S128x1, .f32⟩ : BufTy).Contents (Elt Ideal))

/-- The soft encoding at row r, bin j. -/
theorem enc_at (r : Fin 262144) (j : Fin 128) :
    val_main_v4 (F := Ideal) x0 x1 x2 (ix2 r j) = enc (x0 (ix2 r (0 : Fin 1))) (rowOf x1) (rowOf x2) j := by
  rw [val_main_v4_apply, val_main_v2_apply, val_main_v0_apply, val_main_v1_apply, val_main_v3_apply]
  have e0 : idx_main_v0 (ix2 r j) = ix2 (0 : Fin 1) j := funext fun a => by match a with | ⟨0, _⟩ => rfl | ⟨1, _⟩ => rfl
  have e1 : idx_main_v1 (ix2 r j) = ix2 r (0 : Fin 1) := funext fun a => by match a with | ⟨0, _⟩ => rfl | ⟨1, _⟩ => rfl
  have e3 : idx_main_v3 (ix2 r j) = ix2 (0 : Fin 1) j := funext fun a => by match a with | ⟨0, _⟩ => rfl | ⟨1, _⟩ => rfl
  rw [e0, e1, e3]
  rfl

/-- Layer 1's pre-activation at row r, unit k. -/
theorem pre1_at (r : Fin 262144) (k : Fin 128) :
    val_main_v9 (F := Ideal) x0 x1 x2 x3 x4 (ix2 r k)
      = lin (enc (x0 (ix2 r (0 : Fin 1))) (rowOf x1) (rowOf x2)) (matOf x3) (vecOf x4) k := by
  rw [val_main_v9_apply, val_main_v6_apply, val_main_v8_apply, val_main_v7_apply, Ideal.addf_def]
  have e8 : idx_main_v7 (idx_main_v8 (ix2 r k)) = ix1 k := funext fun a => by match a with | ⟨0, _⟩ => rfl
  rw [e8]
  unfold lin
  refine congrArg₂ (· + ·) (Finset.sum_congr rfl fun j _ => ?_) rfl
  have el : lidx_main_v6 (ix2 r k) j = ix2 r j := funext fun a => by match a with | ⟨0, _⟩ => rfl | ⟨1, _⟩ => rfl
  have er : idx_main_v5 (ridx_main_v6 (ix2 r k) j) = ix2 k j := funext fun a => by match a with | ⟨0, _⟩ => rfl | ⟨1, _⟩ => rfl
  rw [el, val_main_v5_apply, er, enc_at]
  rfl

/-- Layer 1's activation. -/
theorem act1_at (r : Fin 262144) (k : Fin 128) :
    val_main_v10 (F := Ideal) x0 x1 x2 x3 x4 (ix2 r k)
      = relu (lin (enc (x0 (ix2 r (0 : Fin 1))) (rowOf x1) (rowOf x2)) (matOf x3) (vecOf x4)) k := by
  rw [val_main_v10_apply, val_main_call0_v0_apply, val_main_call0_cst_apply, pre1_at, Ideal.maximumf_def, Ideal.ofBits_def,
    Ideal.ofBits_zero_f32]
  rfl

/-- Layer 2's pre-activation. -/
theorem pre2_at (r : Fin 262144) (k : Fin 128) :
    val_main_v15 (F := Ideal) x0 x1 x2 x3 x4 x5 x6 (ix2 r k)
      = lin (relu (lin (enc (x0 (ix2 r (0 : Fin 1))) (rowOf x1) (rowOf x2)) (matOf x3) (vecOf x4))) (matOf x5) (vecOf x6) k := by
  rw [val_main_v15_apply, val_main_v12_apply, val_main_v14_apply, val_main_v13_apply, Ideal.addf_def]
  have e8 : idx_main_v13 (idx_main_v14 (ix2 r k)) = ix1 k := funext fun a => by match a with | ⟨0, _⟩ => rfl
  rw [e8]
  unfold lin
  refine congrArg₂ (· + ·) (Finset.sum_congr rfl fun j _ => ?_) rfl
  have el : lidx_main_v12 (ix2 r k) j = ix2 r j := funext fun a => by match a with | ⟨0, _⟩ => rfl | ⟨1, _⟩ => rfl
  have er : idx_main_v11 (ridx_main_v12 (ix2 r k) j) = ix2 k j := funext fun a => by match a with | ⟨0, _⟩ => rfl | ⟨1, _⟩ => rfl
  rw [el, val_main_v11_apply, er, act1_at]
  rfl

/-- Layer 2's activation. -/
theorem act2_at (r : Fin 262144) (k : Fin 128) :
    val_main_v16 (F := Ideal) x0 x1 x2 x3 x4 x5 x6 (ix2 r k)
      = relu (lin (relu (lin (enc (x0 (ix2 r (0 : Fin 1))) (rowOf x1) (rowOf x2)) (matOf x3) (vecOf x4))) (matOf x5) (vecOf x6)) k := by
  rw [val_main_v16_apply, val_main_call1_v0_apply, val_main_call1_cst_apply, pre2_at, Ideal.maximumf_def, Ideal.ofBits_def,
    Ideal.ofBits_zero_f32]
  rfl

/-- The logits at row r, unit k. -/
theorem logits_at (r : Fin 262144) (k : Fin 128) :
    val_main_v21 (F := Ideal) x0 x1 x2 x3 x4 x5 x6 x7 x8 (ix2 r k)
      = logits (lin (enc (x0 (ix2 r (0 : Fin 1))) (rowOf x1) (rowOf x2)) (matOf x3) (vecOf x4)) (matOf x5) (vecOf x6)
          (matOf x7) (vecOf x8) k := by
  rw [val_main_v21_apply, val_main_v18_apply, val_main_v20_apply, val_main_v19_apply, Ideal.addf_def]
  have e8 : idx_main_v19 (idx_main_v20 (ix2 r k)) = ix1 k := funext fun a => by match a with | ⟨0, _⟩ => rfl
  rw [e8]
  unfold logits
  unfold lin
  refine congrArg₂ (· + ·) (Finset.sum_congr rfl fun j _ => ?_) rfl
  have el : lidx_main_v18 (ix2 r k) j = ix2 r j := funext fun a => by match a with | ⟨0, _⟩ => rfl | ⟨1, _⟩ => rfl
  have er : idx_main_v17 (ridx_main_v18 (ix2 r k) j) = ix2 k j := funext fun a => by match a with | ⟨0, _⟩ => rfl | ⟨1, _⟩ => rfl
  rw [el, val_main_v17_apply, er, act2_at]
  rfl

/-- The logits of row r as a function of the unit. -/
abbrev rowLogits (r : Fin 262144) : Fin 128 → EReal :=
  logits (lin (enc (x0 (ix2 r (0 : Fin 1))) (rowOf x1) (rowOf x2)) (matOf x3) (vecOf x4)) (matOf x5) (vecOf x6)
    (matOf x7) (vecOf x8)

/-- The row maximum: the host's reduce with max from -∞ over the row, then once more against -∞. -/
theorem max_at (r : Fin 262144) :
    val_main_v24 (F := Ideal) x0 x1 x2 x3 x4 x5 x6 x7 x8 (ix1 r) = rowMax (rowLogits x0 x1 x2 x3 x4 x5 x6 x7 x8 r) := by
  rw [val_main_v24_apply, val_main_v23_apply, val_main_cst_0_apply]
  unfold val_main_v22
  rw [Host.reduce_eq_fold_single FloatOps.maximumf _ _ reducesTo_S262144x128_S262144_d1 (by decide) h_S_]
  rw [val_main_cst_apply, Ideal.maximumf_def, Ideal.ofBits_def, ofBits_negInf_f32, max_eq_right bot_le]
  unfold rowMax
  refine Finset.fold_congr fun (k : Fin 128) _ => ?_
  show val_main_v21 (F := Ideal) x0 x1 x2 x3 x4 x5 x6 x7 x8 _ = _
  have e : (Shape.Reduces.lift (s := S262144x128) (t := S262144) (a := 1) (by decide) (ix1 r) k) = ix2 r k :=
    funext fun a => Fin.ext (by match a with | ⟨0, _⟩ => rfl | ⟨1, _⟩ => rfl)
  rw [e, logits_at]

/-- The shifted exponential at row r, unit k. -/
theorem expo_at (r : Fin 262144) (k : Fin 128) :
    val_main_v28 (F := Ideal) x0 x1 x2 x3 x4 x5 x6 x7 x8 (ix2 r k) = expo (rowLogits x0 x1 x2 x3 x4 x5 x6 x7 x8 r) k := by
  rw [val_main_v28_apply, val_main_v27_apply, val_main_v26_apply, val_main_v25_apply]
  have e : idx_main_v25 (idx_main_v26 (ix2 r k)) = ix1 r := funext fun a => by match a with | ⟨0, _⟩ => rfl
  rw [e, max_at, logits_at]
  rfl

/-- The sum of the row's exponentials (from the initial value 0). -/
theorem sum_at (r : Fin 262144) :
    val_main_v29 (F := Ideal) x0 x1 x2 x3 x4 x5 x6 x7 x8 (ix1 r)
      = ∑ k : Fin 128, expo (rowLogits x0 x1 x2 x3 x4 x5 x6 x7 x8 r) k := by
  rw [val_main_v29_apply, val_main_cst_1_apply, Ideal.ofBits_def, Ideal.ofBits_zero_f32, zero_add]
  refine Finset.sum_congr rfl fun k _ => ?_
  have e : idx_main_v29 (ix1 r) k = ix2 r k := funext fun a => by match a with | ⟨0, _⟩ => rfl | ⟨1, _⟩ => rfl
  rw [e, expo_at]

/-- The softmax weight at row r, unit k. -/
theorem weight_at (r : Fin 262144) (k : Fin 128) :
    val_main_v32 (F := Ideal) x0 x1 x2 x3 x4 x5 x6 x7 x8 (ix2 r k)
      = Ideal.div (expo (rowLogits x0 x1 x2 x3 x4 x5 x6 x7 x8 r) k) (∑ k' : Fin 128, expo (rowLogits x0 x1 x2 x3 x4 x5 x6 x7 x8 r) k') := by
  rw [val_main_v32_apply, val_main_v31_apply, val_main_v30_apply]
  have e : idx_main_v30 (idx_main_v31 (ix2 r k)) = ix1 r := funext fun a => by match a with | ⟨0, _⟩ => rfl
  rw [e, expo_at, sum_at]
  rfl

/-- THE REFERENCE'S RESULT ARRAY is the plain arrangement of every row of the arguments. -/
theorem result_eq :
    val_main_v33 (F := Ideal) x0 x1 x2 x3 x4 x5 x6 x7 x8 x9 = arrPlain x0 x1 x2 x3 x4 x5 x6 x7 x8 x9 := by
  funext i
  obtain ⟨r, z, rfl⟩ : ∃ (r : Fin 262144) (z : Fin 1), i = ix2 r z := ⟨i 0, i 1, eq_ix2 i⟩
  obtain rfl : z = 0 := Subsingleton.elim _ _
  rw [val_main_v33_apply]
  unfold arrPlain outPlain meanPlain
  refine Finset.sum_congr rfl fun k _ => ?_
  have el : lidx_main_v33 (ix2 r (0 : Fin 1)) k = ix2 r k := funext fun a => by match a with | ⟨0, _⟩ => rfl | ⟨1, _⟩ => rfl
  have er : ridx_main_v33 (ix2 r (0 : Fin 1)) k = ix2 k (0 : Fin 1) := funext fun a => by match a with | ⟨0, _⟩ => rfl | ⟨1, _⟩ => rfl
  rw [el, er, weight_at]
  rfl

/-- The run's result term is that array of the launch contents of the arguments. -/
theorem res_eq (m : (ℓ : Loc nD τ sig) → Buf (Elt Ideal) ℓ) (c : Dev nD) :
    Cert.ReferenceIdeal.Value.res_main_v33 m c
      = arrPlain (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5))
          (m ((c.tc : Thread nD τ).loc main_arg6)) (m ((c.tc : Thread nD τ).loc main_arg7))
          (m ((c.tc : Thread nD τ).loc main_arg8)) (m ((c.tc : Thread nD τ).loc main_arg9)) := by
  rw [val_main_v33_eq]
  exact result_eq _ _ _ _ _ _ _ _ _ _

end Cert.ReferenceIdeal.RefValue

end
-- ==== Proof.KerRow.lean ====
/-
  The kernel body's stored value, read at a row of the block, is the collapsed arrangement of that row.

  The body's operands are whole blocks: the rows' scalars xb [8192, 1], the encoder's slope and offset [1, 128], the
  three weight matrices already transposed (input unit first) [128, 128], the biases and the centres as rows [1, 128].
  Its stored value is named stage by stage — the encoded slope and offset (two row-times-matrix products), layer 1's
  collapsed pre-activation, the two further layers, the row maximum, the shifted exponentials, the two row sums and
  their quotient — and each stage is read at an index (p, k): a matrix product into a zero accumulator is the sum over
  the contracted coordinate, a broadcast reads its source's row or column, a lane reduction is the sum or the fold of
  max over the row.
-/
import proofs.«142796_g72937134620845_cont_sun_m_422_3_alg».proof.Proof.Gen.KernelIdeal.Value
import proofs.«142796_g72937134620845_cont_sun_m_422_3_alg».proof.Proof.RowSpec
import Idealize.ShloMosaic.Lib.ValueIdx
import Idealize.ShloMosaic.PureOps.Ideal.Laws

noncomputable section

open scoped BigOperators

namespace Cert.KernelIdeal.RowValue

open Cert.KernelIdeal Cert.KernelIdeal.Gen Idealize.ShloMosaic Idealize.ShloMosaic.ValueIdx
open Cert.RowSpec Cert.LibReal

/-! ## The two matrix products at an index -/

theorem lhsRow_0 (i : S1x128.Idx) (q : dot_S1x128_S128x128_S1x128_1_0_0_1_n_n.contr.Idx) :
    (dot_S1x128_S128x128_S1x128_1_0_0_1_n_n.lhsIdx i q 0).val = (i 0).val := by
  unfold DotDims.lhsIdx
  rw [dif_neg (show ¬(0 : Fin S1x128.rank) ∈ dot_S1x128_S128x128_S1x128_1_0_0_1_n_n.lhsBatch by decide), dif_pos (show (0 : Fin S1x128.rank) ∈ dot_S1x128_S128x128_S1x128_1_0_0_1_n_n.lhsNonContracting by decide)]
  rfl
theorem lhsRow_1 (i : S1x128.Idx) (q : dot_S1x128_S128x128_S1x128_1_0_0_1_n_n.contr.Idx) :
    (dot_S1x128_S128x128_S1x128_1_0_0_1_n_n.lhsIdx i q 1).val = (q ⟨0, by decide⟩).val :=
  dot_S1x128_S128x128_S1x128_1_0_0_1_n_n.lhsIdx_val_of_single rfl i q
theorem rhsRow_0 (i : S1x128.Idx) (q : dot_S1x128_S128x128_S1x128_1_0_0_1_n_n.contr.Idx) :
    (dot_S1x128_S128x128_S1x128_1_0_0_1_n_n.rhsIdx i q 0).val = (q ⟨0, by decide⟩).val :=
  dot_S1x128_S128x128_S1x128_1_0_0_1_n_n.rhsIdx_val_of_single rfl i q
theorem rhsRow_1 (i : S1x128.Idx) (q : dot_S1x128_S128x128_S1x128_1_0_0_1_n_n.contr.Idx) :
    (dot_S1x128_S128x128_S1x128_1_0_0_1_n_n.rhsIdx i q 1).val = (i 1).val := by
  unfold DotDims.rhsIdx
  rw [dif_neg (show ¬(1 : Fin S128x128.rank) ∈ dot_S1x128_S128x128_S1x128_1_0_0_1_n_n.rhsBatch by decide), dif_pos (show (1 : Fin S128x128.rank) ∈ dot_S1x128_S128x128_S1x128_1_0_0_1_n_n.rhsNonContracting by decide)]
  rfl

/-- A [1, 128] row times a [128, 128] matrix into the zero accumulator, at column k: the sum over the contracted
    coordinate j of row j times the matrix at (j, k). -/
theorem rowMatmul_at (a : FVec Ideal S1x128 .f32) (B : FVec Ideal S128x128 .f32) (k : Fin 128) :
    matmul dot_S1x128_S128x128_S1x128_1_0_0_1_n_n none a B (constant S1x128 .f32 0x00000000#32) (ix2 (0 : Fin 1) k)
      = ∑ j : Fin 128, a (ix2 (0 : Fin 1) j) * B (ix2 j k) := by
  simp only [matmul]
  rw [Ideal.matmul_constant_zero_apply, ← Equiv.sum_comp (ValueIdx.contrEquiv1 dot_S1x128_S128x128_S1x128_1_0_0_1_n_n 128 rfl rfl).symm]
  refine Finset.sum_congr rfl fun j _ => ?_
  have hk := ValueIdx.contrEquiv1_symm_val dot_S1x128_S128x128_S1x128_1_0_0_1_n_n 128 rfl rfl j
  have el : dot_S1x128_S128x128_S1x128_1_0_0_1_n_n.lhsIdx (ix2 (0 : Fin 1) k) ((ValueIdx.contrEquiv1 dot_S1x128_S128x128_S1x128_1_0_0_1_n_n 128 rfl rfl).symm j) = ix2 (0 : Fin 1) j := funext fun a => Fin.ext (by
    match a with
    | ⟨0, _⟩ => exact lhsRow_0 _ _
    | ⟨1, _⟩ => exact (lhsRow_1 _ _).trans hk)
  have er : dot_S1x128_S128x128_S1x128_1_0_0_1_n_n.rhsIdx (ix2 (0 : Fin 1) k) ((ValueIdx.contrEquiv1 dot_S1x128_S128x128_S1x128_1_0_0_1_n_n 128 rfl rfl).symm j) = ix2 j k := funext fun a => Fin.ext (by
    match a with
    | ⟨0, _⟩ => exact (rhsRow_0 _ _).trans hk
    | ⟨1, _⟩ => exact rhsRow_1 _ _)
  rw [el, er]

theorem lhsBlk_0 (i : S8192x128.Idx) (q : dot_S8192x128_S128x128_S8192x128_1_0_0_1_n_n.contr.Idx) :
    (dot_S8192x128_S128x128_S8192x128_1_0_0_1_n_n.lhsIdx i q 0).val = (i 0).val := by
  unfold DotDims.lhsIdx
  rw [dif_neg (show ¬(0 : Fin S8192x128.rank) ∈ dot_S8192x128_S128x128_S8192x128_1_0_0_1_n_n.lhsBatch by decide), dif_pos (show (0 : Fin S8192x128.rank) ∈ dot_S8192x128_S128x128_S8192x128_1_0_0_1_n_n.lhsNonContracting by decide)]
  rfl
theorem lhsBlk_1 (i : S8192x128.Idx) (q : dot_S8192x128_S128x128_S8192x128_1_0_0_1_n_n.contr.Idx) :
    (dot_S8192x128_S128x128_S8192x128_1_0_0_1_n_n.lhsIdx i q 1).val = (q ⟨0, by decide⟩).val :=
  dot_S8192x128_S128x128_S8192x128_1_0_0_1_n_n.lhsIdx_val_of_single rfl i q
theorem rhsBlk_0 (i : S8192x128.Idx) (q : dot_S8192x128_S128x128_S8192x128_1_0_0_1_n_n.contr.Idx) :
    (dot_S8192x128_S128x128_S8192x128_1_0_0_1_n_n.rhsIdx i q 0).val = (q ⟨0, by decide⟩).val :=
  dot_S8192x128_S128x128_S8192x128_1_0_0_1_n_n.rhsIdx_val_of_single rfl i q
theorem rhsBlk_1 (i : S8192x128.Idx) (q : dot_S8192x128_S128x128_S8192x128_1_0_0_1_n_n.contr.Idx) :
    (dot_S8192x128_S128x128_S8192x128_1_0_0_1_n_n.rhsIdx i q 1).val = (i 1).val := by
  unfold DotDims.rhsIdx
  rw [dif_neg (show ¬(1 : Fin S128x128.rank) ∈ dot_S8192x128_S128x128_S8192x128_1_0_0_1_n_n.rhsBatch by decide), dif_pos (show (1 : Fin S128x128.rank) ∈ dot_S8192x128_S128x128_S8192x128_1_0_0_1_n_n.rhsNonContracting by decide)]
  rfl

/-- A [8192, 128] block times a [128, 128] matrix into the zero accumulator, at (p, k): the sum over the contracted
    coordinate j of the block at (p, j) times the matrix at (j, k). -/
theorem blkMatmul_at (A : FVec Ideal S8192x128 .f32) (B : FVec Ideal S128x128 .f32) (p : Fin 8192) (k : Fin 128) :
    matmul dot_S8192x128_S128x128_S8192x128_1_0_0_1_n_n none A B (constant S8192x128 .f32 0x00000000#32) (ix2 p k)
      = ∑ j : Fin 128, A (ix2 p j) * B (ix2 j k) := by
  simp only [matmul]
  rw [Ideal.matmul_constant_zero_apply, ← Equiv.sum_comp (ValueIdx.contrEquiv1 dot_S8192x128_S128x128_S8192x128_1_0_0_1_n_n 128 rfl rfl).symm]
  refine Finset.sum_congr rfl fun j _ => ?_
  have hk := ValueIdx.contrEquiv1_symm_val dot_S8192x128_S128x128_S8192x128_1_0_0_1_n_n 128 rfl rfl j
  have el : dot_S8192x128_S128x128_S8192x128_1_0_0_1_n_n.lhsIdx (ix2 p k) ((ValueIdx.contrEquiv1 dot_S8192x128_S128x128_S8192x128_1_0_0_1_n_n 128 rfl rfl).symm j) = ix2 p j := funext fun a => Fin.ext (by
    match a with
    | ⟨0, _⟩ => exact lhsBlk_0 _ _
    | ⟨1, _⟩ => exact (lhsBlk_1 _ _).trans hk)
  have er : dot_S8192x128_S128x128_S8192x128_1_0_0_1_n_n.rhsIdx (ix2 p k) ((ValueIdx.contrEquiv1 dot_S8192x128_S128x128_S8192x128_1_0_0_1_n_n 128 rfl rfl).symm j) = ix2 j k := funext fun a => Fin.ext (by
    match a with
    | ⟨0, _⟩ => exact (rhsBlk_0 _ _).trans hk
    | ⟨1, _⟩ => exact rhsBlk_1 _ _)
  rw [el, er]

/-! ## Broadcasts, the column cast and the lane reductions at an index -/

/-- A [1, 128] row broadcast down the block reads the row at k. -/
theorem bcastRow_at (v : FVec Ideal S1x128 .f32) (p : Fin 8192) (k : Fin 128) :
    broadcastTo S8192x128 v broadcasts_S1x128_S8192x128 (ix2 p k) = v (ix2 (0 : Fin 1) k) :=
  broadcastTo_apply v _ (ix2 p k) (ix2 (0 : Fin 1) k) (fun a => match a with
    | ⟨0, _⟩ => by show 0 = if (1 : Nat) = 1 then 0 else p.val; rw [if_pos rfl]
    | ⟨1, _⟩ => by show k.val = if (128 : Nat) = 1 then 0 else k.val; rw [if_neg (by decide)])

/-- A [8192, 1] column broadcast across the block reads the column at p. -/
theorem bcastCol_at (v : FVec Ideal S8192x1 .f32) (p : Fin 8192) (k : Fin 128) :
    broadcastTo S8192x128 v broadcasts_S8192x1_S8192x128 (ix2 p k) = v (ix2 p (0 : Fin 1)) :=
  broadcastTo_apply v _ (ix2 p k) (ix2 p (0 : Fin 1)) (fun a => match a with
    | ⟨0, _⟩ => by show p.val = if (8192 : Nat) = 1 then 0 else p.val; rw [if_neg (by decide)]
    | ⟨1, _⟩ => by show 0 = if (1 : Nat) = 1 then 0 else k.val; rw [if_pos rfl])

/-- A [8192] vector cast to a [8192, 1] column reads the vector at p. -/
theorem castCol_at (v : FVec Ideal S8192 .f32) (p : Fin 8192) :
    shapeCast S8192x1 v shapeCasts_S8192_S8192x1 (ix2 p (0 : Fin 1)) = v (ix1 p) :=
  shapeCast_apply v _ (ix2 p (0 : Fin 1)) (ix1 p) (by
    rw [Shape.rowMajor_val_one, Shape.rowMajor_val_two]; show p.val = p.val * 1 + 0; omega)

/-- A row's entries as the reduction's lifted indices. -/
theorem lift_row (p : Fin 8192) (k : Fin 128) :
    (reduces_S8192x128_S8192 : Shape.Reduces S8192x128 [1] S8192).lift (ix1 p) k = ix2 p k :=
  funext fun a => Fin.ext (by match a with | ⟨0, _⟩ => rfl | ⟨1, _⟩ => rfl)

/-- The lane sum of a block at row p. -/
theorem laneSum_at (v : FVec Ideal S8192x128 .f32) (p : Fin 8192) :
    multiReduction .add [1] S8192 v 0x00000000#32 reduces_S8192x128_S8192 (.inl rfl) rfl (ix1 p)
      = ∑ k : Fin 128, v (ix2 p k) := by
  refine (Ideal.multiReduction_add_single v 0x00000000#32 reduces_S8192x128_S8192 (.inl rfl) rfl (ix1 p)).trans ?_
  exact Finset.sum_congr rfl fun (k : Fin 128) _ => congrArg v (lift_row p k)

/-- The lane maximum of a block at row p: the fold of max from -∞ over the row. -/
theorem laneMax_at (v : FVec Ideal S8192x128 .f32) (p : Fin 8192) :
    multiReduction .maximumf [1] S8192 v 0xFF800000#32 reduces_S8192x128_S8192 (.inl rfl) rfl (ix1 p)
      = rowMax fun k => v (ix2 p k) := by
  refine (Ideal.multiReduction_maximumf_single v 0xFF800000#32 reduces_S8192x128_S8192 (.inl rfl) rfl (ix1 p)).trans ?_
  rw [Ideal.ofBits_def, ofBits_negInf_f32]
  unfold rowMax
  exact Finset.fold_congr fun (k : Fin 128) _ => congrArg v (lift_row p k)

/-! ## The body's stored value, stage by stage -/

section Stages

variable (xb : FVec Ideal S8192x1 .f32) (ew eb : FVec Ideal S1x128 .f32) (w1 : FVec Ideal S128x128 .f32)
  (b1 : FVec Ideal S1x128 .f32) (w2 : FVec Ideal S128x128 .f32) (b2 : FVec Ideal S1x128 .f32)
  (w3 : FVec Ideal S128x128 .f32) (b3 : FVec Ideal S1x128 .f32) (mu : FVec Ideal S1x128 .f32)

/-- Layer 1's collapsed pre-activation over the block: the rows' scalars times the encoded slope plus the encoded
    offset (each encoded by one row-times-matrix product). -/
def kPre1 : FVec Ideal S8192x128 .f32 :=
  addf (mulf (broadcastTo S8192x128 xb broadcasts_S8192x1_S8192x128)
      (broadcastTo S8192x128 (matmul dot_S1x128_S128x128_S1x128_1_0_0_1_n_n none ew (shapeCast S128x128 w1 shapeCasts_S128x128_S128x128) (constant S1x128 .f32 0x00000000#32)) broadcasts_S1x128_S8192x128))
    (broadcastTo S8192x128 (addf (matmul dot_S1x128_S128x128_S1x128_1_0_0_1_n_n none eb (shapeCast S128x128 w1 shapeCasts_S128x128_S128x128) (constant S1x128 .f32 0x00000000#32)) (shapeCast S1x128 b1 shapeCasts_S1x128_S1x128)) broadcasts_S1x128_S8192x128)

/-- Layer 1's activation. -/
def kAct1 : FVec Ideal S8192x128 .f32 :=
  maximumf (kPre1 xb ew eb w1 b1) (broadcast S8192x128 (Scalar.ofBits .f32 0x00000000#32))

/-- Layer 2's pre-activation. -/
def kPre2 : FVec Ideal S8192x128 .f32 :=
  addf (matmul dot_S8192x128_S128x128_S8192x128_1_0_0_1_n_n none (kAct1 xb ew eb w1 b1) (shapeCast S128x128 w2 shapeCasts_S128x128_S128x128) (constant S8192x128 .f32 0x00000000#32))
    (broadcastTo S8192x128 (shapeCast S1x128 b2 shapeCasts_S1x128_S1x128) broadcasts_S1x128_S8192x128)

/-- Layer 2's activation. -/
def kAct2 : FVec Ideal S8192x128 .f32 :=
  maximumf (kPre2 xb ew eb w1 b1 w2 b2) (broadcast S8192x128 (Scalar.ofBits .f32 0x00000000#32))

/-- The logits. -/
def kLogits : FVec Ideal S8192x128 .f32 :=
  addf (matmul dot_S8192x128_S128x128_S8192x128_1_0_0_1_n_n none (kAct2 xb ew eb w1 b1 w2 b2) (shapeCast S128x128 w3 shapeCasts_S128x128_S128x128) (constant S8192x128 .f32 0x00000000#32))
    (broadcastTo S8192x128 (shapeCast S1x128 b3 shapeCasts_S1x128_S1x128) broadcasts_S1x128_S8192x128)

/-- The shifted exponentials. -/
def kExp : FVec Ideal S8192x128 .f32 :=
  exp (subf (kLogits xb ew eb w1 b1 w2 b2 w3 b3)
    (broadcastTo S8192x128 (shapeCast S8192x1 (multiReduction .maximumf [1] S8192 (kLogits xb ew eb w1 b1 w2 b2 w3 b3) 0xFF800000#32 reduces_S8192x128_S8192 (.inl rfl) rfl) shapeCasts_S8192_S8192x1) broadcasts_S8192x1_S8192x128))

/-- The stored column: the exponentials paired with the centres and summed, over the sum of the exponentials. -/
def kOut : FVec Ideal S8192x1 .f32 :=
  divf (shapeCast S8192x1 (multiReduction .add [1] S8192 (mulf (kExp xb ew eb w1 b1 w2 b2 w3 b3) (broadcastTo S8192x128 (shapeCast S1x128 mu shapeCasts_S1x128_S1x128) broadcasts_S1x128_S8192x128)) 0x00000000#32 reduces_S8192x128_S8192 (.inl rfl) rfl) shapeCasts_S8192_S8192x1)
    (shapeCast S8192x1 (multiReduction .add [1] S8192 (kExp xb ew eb w1 b1 w2 b2 w3 b3) 0x00000000#32 reduces_S8192x128_S8192 (.inl rfl) rfl) shapeCasts_S8192_S8192x1)

/-- The body's payload is that column (the payload's own lines, grouped). -/
theorem payload_eq :
    k0_pay1 (F := Ideal) (k0_pay2 ew w1 eb w1 b1 xb w2 b2 w3) (k0_pay3 b3) mu = kOut xb ew eb w1 b1 w2 b2 w3 b3 mu := rfl

/-- A transposed weight matrix (input unit first) read output unit first. -/
abbrev wT (w : FVec Ideal S128x128 .f32) : Fin 128 → Fin 128 → EReal := fun k j => w (ix2 j k)

theorem kPre1_at (p : Fin 8192) (k : Fin 128) :
    kPre1 xb ew eb w1 b1 (ix2 p k) = pre1 (xb (ix2 p (0 : Fin 1))) (rowOf ew) (rowOf eb) (wT w1) (rowOf b1) k := by
  unfold kPre1
  rw [addf_apply, mulf_apply, bcastCol_at, bcastRow_at, bcastRow_at, addf_apply, shapeCast_self, shapeCast_self,
    rowMatmul_at, rowMatmul_at]
  rfl

theorem kAct1_at (p : Fin 8192) (k : Fin 128) :
    kAct1 xb ew eb w1 b1 (ix2 p k) = relu (pre1 (xb (ix2 p (0 : Fin 1))) (rowOf ew) (rowOf eb) (wT w1) (rowOf b1)) k := by
  unfold kAct1
  rw [maximumf_apply, broadcast_apply, kPre1_at]
  show max _ (Ideal.ofBits .f32 0x00000000#32) = _
  rw [Ideal.ofBits_zero_f32]
  rfl

theorem kPre2_at (p : Fin 8192) (k : Fin 128) :
    kPre2 xb ew eb w1 b1 w2 b2 (ix2 p k)
      = lin (relu (pre1 (xb (ix2 p (0 : Fin 1))) (rowOf ew) (rowOf eb) (wT w1) (rowOf b1))) (wT w2) (rowOf b2) k := by
  unfold kPre2
  rw [addf_apply, shapeCast_self, shapeCast_self, blkMatmul_at, bcastRow_at]
  unfold lin
  refine congrArg₂ (· + ·) (Finset.sum_congr rfl fun j _ => ?_) rfl
  rw [kAct1_at]

theorem kAct2_at (p : Fin 8192) (k : Fin 128) :
    kAct2 xb ew eb w1 b1 w2 b2 (ix2 p k)
      = relu (lin (relu (pre1 (xb (ix2 p (0 : Fin 1))) (rowOf ew) (rowOf eb) (wT w1) (rowOf b1))) (wT w2) (rowOf b2)) k := by
  unfold kAct2
  rw [maximumf_apply, broadcast_apply, kPre2_at]
  show max _ (Ideal.ofBits .f32 0x00000000#32) = _
  rw [Ideal.ofBits_zero_f32]
  rfl

theorem kLogits_at (p : Fin 8192) (k : Fin 128) :
    kLogits xb ew eb w1 b1 w2 b2 w3 b3 (ix2 p k)
      = logits (pre1 (xb (ix2 p (0 : Fin 1))) (rowOf ew) (rowOf eb) (wT w1) (rowOf b1)) (wT w2) (rowOf b2) (wT w3) (rowOf b3) k := by
  unfold kLogits
  rw [addf_apply, shapeCast_self, shapeCast_self, blkMatmul_at, bcastRow_at]
  unfold logits
  unfold lin
  refine congrArg₂ (· + ·) (Finset.sum_congr rfl fun j _ => ?_) rfl
  rw [kAct2_at]
  rfl

theorem kExp_at (p : Fin 8192) (k : Fin 128) :
    kExp xb ew eb w1 b1 w2 b2 w3 b3 (ix2 p k)
      = expo (logits (pre1 (xb (ix2 p (0 : Fin 1))) (rowOf ew) (rowOf eb) (wT w1) (rowOf b1)) (wT w2) (rowOf b2) (wT w3) (rowOf b3)) k := by
  unfold kExp
  show Ideal.exp (kLogits xb ew eb w1 b1 w2 b2 w3 b3 (ix2 p k) - broadcastTo S8192x128 _ broadcasts_S8192x1_S8192x128 (ix2 p k)) = _
  rw [bcastCol_at, castCol_at, laneMax_at, kLogits_at]
  unfold expo
  congr 2
  exact congrArg rowMax (funext fun k' => kLogits_at xb ew eb w1 b1 w2 b2 w3 b3 p k')

/-- THE STORED COLUMN AT ROW p is the collapsed arrangement of the row. -/
theorem kOut_at (p : Fin 8192) :
    kOut xb ew eb w1 b1 w2 b2 w3 b3 mu (ix2 p (0 : Fin 1))
      = outFused (xb (ix2 p (0 : Fin 1))) (rowOf ew) (rowOf eb) (wT w1) (rowOf b1) (wT w2) (rowOf b2) (wT w3) (rowOf b3) (rowOf mu) := by
  unfold kOut
  rw [divf_apply, castCol_at, castCol_at, laneSum_at, laneSum_at]
  unfold outFused meanFused
  refine congrArg₂ Ideal.div (Finset.sum_congr rfl fun k _ => ?_) (Finset.sum_congr rfl fun k _ => kExp_at xb ew eb w1 b1 w2 b2 w3 b3 p k)
  rw [mulf_apply, bcastRow_at, shapeCast_self, kExp_at]
  rfl

end Stages

/-! ## What the body leaves in the output block -/

theorem zeroOffsets : (![0, 0] : Fin 2 → Nat) = fun _ => 0 := funext fun a => by fin_cases a <;> rfl

/-- The output block after the body, at row p, from the input blocks: the collapsed arrangement of that row. -/
theorem out_at (x0 : Vec Ideal S8192x1 .f32) (x1 x2 : Vec Ideal S1x128 .f32) (x3 : Vec Ideal S128x128 .f32) (x4 : Vec Ideal S1x128 .f32)
    (x5 : Vec Ideal S128x128 .f32) (x6 : Vec Ideal S1x128 .f32) (x7 : Vec Ideal S128x128 .f32) (x8 x9 : Vec Ideal S1x128 .f32)
    (p : Fin 8192) :
    out0_10 (F := Ideal) x0 x1 x2 x3 x4 x5 x6 x7 x8 x9 (ix2 p (0 : Fin 1))
      = outFused (x0 (ix2 p (0 : Fin 1))) (rowOf x1) (rowOf x2) (wT x3) (rowOf x4) (wT x5) (rowOf x6) (wT x7) (rowOf x8) (rowOf x9) := by
  unfold out0_10
  rw [View.canon_unit_zero zeroOffsets]
  simp only [View.ld_unit_zero (S := S1x128) zeroOffsets, View.ld_unit_zero (S := S128x128) zeroOffsets,
    View.ld_unit_zero (S := S8192x1) zeroOffsets]
  rw [payload_eq]
  exact kOut_at x0 x1 x2 x3 x4 x5 x6 x7 x8 x9 p

end Cert.KernelIdeal.RowValue

end
-- ==== Proof.KerArr.lean ====
/-
  The kernel's result array is the collapsed arrangement of every row.

  The grid has 32 points; point t stages rows 8192 t … 8192 t + 8191 of x and writes back the same rows of the result,
  while every other operand is staged whole (block (0, 0)).  Before the region the host transposes the three weight
  matrices and reshapes the biases and the centres to rows, so the staged matrices are read input unit first and the
  staged rows are the original vectors.  Hence what point t writes back is block t of ONE array function of the
  arguments, the blocks cover the array, and the array after the run is that function.
-/
import proofs.«142796_g72937134620845_cont_sun_m_422_3_alg».proof.Proof.Gen.KernelIdeal.Value
import proofs.«142796_g72937134620845_cont_sun_m_422_3_alg».proof.Proof.KerRow
import proofs.«142796_g72937134620845_cont_sun_m_422_3_alg».proof.Proof.RowSpec
import Idealize.ShloMosaic.Lib.StableHlo.Run
import Idealize.ShloMosaic.Lib.Pipeline.Value
import Idealize.ShloMosaic.Lib.ValueIdx

noncomputable section

namespace Cert.KernelIdeal.ArrValue

open Cert.KernelIdeal Cert.KernelIdeal.Gen Idealize.ShloMosaic Idealize.ShloMosaic.TcCoe Idealize.SL.Sem
open Idealize.ShloMosaic.Pipeline (Dat)
open Idealize.ShloMosaic.ValueIdx Cert.RowSpec Cert.KernelIdeal.RowValue

variable (m : (ℓ : Loc nD τ sig) → Buf (Elt Ideal) ℓ) (ρ : Dev nD → PrngReg)

/-- The printed index maps, decided over the 32 points: x's window moves with the result's, the result's block index
    is the point, and every other window sits at block (0, 0). -/
theorem idx_facts : ∀ t : Fin cfg0.N,
    (win0_0.index t (0 : Fin 2) = win0_10.index t (0 : Fin 2) ∧ win0_0.index t (1 : Fin 2) = win0_10.index t (1 : Fin 2))
    ∧ (win0_10.index t (0 : Fin 2) = t.val ∧ win0_10.index t (1 : Fin 2) = 0)
    ∧ (win0_1.index t (0 : Fin 2) = 0 ∧ win0_1.index t (1 : Fin 2) = 0)
    ∧ (win0_2.index t (0 : Fin 2) = 0 ∧ win0_2.index t (1 : Fin 2) = 0)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0)
    ∧ (win0_6.index t (0 : Fin 2) = 0 ∧ win0_6.index t (1 : Fin 2) = 0)
    ∧ (win0_7.index t (0 : Fin 2) = 0 ∧ win0_7.index t (1 : Fin 2) = 0)
    ∧ (win0_8.index t (0 : Fin 2) = 0 ∧ win0_8.index t (1 : Fin 2) = 0)
    ∧ (win0_9.index t (0 : Fin 2) = 0 ∧ win0_9.index t (1 : Fin 2) = 0) :=
  (by decide +kernel : ∀ t : Fin grid0.N, _)

/-! ## The host prefix, read at an index -/

theorem V_w1 (c : Dev nD) (j k : Fin 128) : V m c main_v0 (ix2 j k) = (m ((c : Thread nD τ).loc main_arg3)) (ix2 k j) := by
  have e : (V m c main_v0 : S128x128.Idx → EReal) = transpose S128x128 [1, 0] (m ((c : Thread nD τ).loc main_arg3)) transposes_S128x128_S128x128_1_0 := by
    dsimp only [Gen.V, Gen.hostOps0]; after_results
  rw [e]
  exact transpose_apply [1, 0] _ transposes_S128x128_S128x128_1_0 (ix2 j k) (ix2 k j) (fun b => match b with
    | ⟨0, _⟩ => rfl
    | ⟨1, _⟩ => rfl)

theorem V_w2 (c : Dev nD) (j k : Fin 128) : V m c main_v1 (ix2 j k) = (m ((c : Thread nD τ).loc main_arg5)) (ix2 k j) := by
  have e : (V m c main_v1 : S128x128.Idx → EReal) = transpose S128x128 [1, 0] (m ((c : Thread nD τ).loc main_arg5)) transposes_S128x128_S128x128_1_0 := by
    dsimp only [Gen.V, Gen.hostOps0]; after_results
  rw [e]
  exact transpose_apply [1, 0] _ transposes_S128x128_S128x128_1_0 (ix2 j k) (ix2 k j) (fun b => match b with
    | ⟨0, _⟩ => rfl
    | ⟨1, _⟩ => rfl)

theorem V_w3 (c : Dev nD) (j k : Fin 128) : V m c main_v2 (ix2 j k) = (m ((c : Thread nD τ).loc main_arg7)) (ix2 k j) := by
  have e : (V m c main_v2 : S128x128.Idx → EReal) = transpose S128x128 [1, 0] (m ((c : Thread nD τ).loc main_arg7)) transposes_S128x128_S128x128_1_0 := by
    dsimp only [Gen.V, Gen.hostOps0]; after_results
  rw [e]
  exact transpose_apply [1, 0] _ transposes_S128x128_S128x128_1_0 (ix2 j k) (ix2 k j) (fun b => match b with
    | ⟨0, _⟩ => rfl
    | ⟨1, _⟩ => rfl)

theorem V_b1 (c : Dev nD) (k : Fin 128) : V m c main_v3 (ix2 (0 : Fin 1) k) = (m ((c : Thread nD τ).loc main_arg4)) (ix1 k) := by
  have e : (V m c main_v3 : S1x128.Idx → EReal) = shapeCast S1x128 (m ((c : Thread nD τ).loc main_arg4)) shapeCasts_S128_S1x128 := by
    dsimp only [Gen.V, Gen.hostOps0]; after_results; rfl
  rw [e]
  exact shapeCast_apply _ _ (ix2 (0 : Fin 1) k) (ix1 k) (by
    rw [Shape.rowMajor_val_one, Shape.rowMajor_val_two]; show k.val = 0 * 128 + k.val; omega)

theorem V_b2 (c : Dev nD) (k : Fin 128) : V m c main_v4 (ix2 (0 : Fin 1) k) = (m ((c : Thread nD τ).loc main_arg6)) (ix1 k) := by
  have e : (V m c main_v4 : S1x128.Idx → EReal) = shapeCast S1x128 (m ((c : Thread nD τ).loc main_arg6)) shapeCasts_S128_S1x128 := by
    dsimp only [Gen.V, Gen.hostOps0]; after_results; rfl
  rw [e]
  exact shapeCast_apply _ _ (ix2 (0 : Fin 1) k) (ix1 k) (by
    rw [Shape.rowMajor_val_one, Shape.rowMajor_val_two]; show k.val = 0 * 128 + k.val; omega)

theorem V_b3 (c : Dev nD) (k : Fin 128) : V m c main_v5 (ix2 (0 : Fin 1) k) = (m ((c : Thread nD τ).loc main_arg8)) (ix1 k) := by
  have e : (V m c main_v5 : S1x128.Idx → EReal) = shapeCast S1x128 (m ((c : Thread nD τ).loc main_arg8)) shapeCasts_S128_S1x128 := by
    dsimp only [Gen.V, Gen.hostOps0]; after_results; rfl
  rw [e]
  exact shapeCast_apply _ _ (ix2 (0 : Fin 1) k) (ix1 k) (by
    rw [Shape.rowMajor_val_one, Shape.rowMajor_val_two]; show k.val = 0 * 128 + k.val; omega)

theorem V_mu (c : Dev nD) (k : Fin 128) : V m c main_v6 (ix2 (0 : Fin 1) k) = (m ((c : Thread nD τ).loc main_arg9)) (ix2 k (0 : Fin 1)) := by
  have e : (V m c main_v6 : S1x128.Idx → EReal) = shapeCast S1x128 (m ((c : Thread nD τ).loc main_arg9)) shapeCasts_S128x1_S1x128 := by
    dsimp only [Gen.V, Gen.hostOps0]; after_results; rfl
  rw [e]
  exact shapeCast_apply _ _ (ix2 (0 : Fin 1) k) (ix2 k (0 : Fin 1)) (by
    rw [Shape.rowMajor_val_two, Shape.rowMajor_val_two]; show k.val * 1 + 0 = 0 * 128 + k.val; omega)

/-! ## The input blocks at a point, read off the arguments -/

theorem blk_ew (c : Dev nD) (t : Fin cfg0.N) : rowOf (iblk m c 1 t) = rowOf (m ((c : Thread nD τ).loc main_arg1)) := by
  obtain ⟨-, -, f1, f2, f3, f4, f5, f6, f7, f8, f9⟩ := idx_facts t
  funext k
  show V m c main_arg1 (((cfg0.win 1).blk t).view.emb (ix2 (0 : Fin 1) k)) = _
  have e : ((cfg0.win 1).blk t).view.emb (ix2 (0 : Fin 1) k) = ix2 (0 : Fin 1) k := funext fun a => Fin.ext (by
      match a with
      | ⟨0, _⟩ => show win0_1.index t (0 : Fin 2) * 1 + 1 * 0 = 0; omega
      | ⟨1, _⟩ => show win0_1.index t (1 : Fin 2) * 128 + 1 * k.val = k.val; omega)
  rw [e]
  rw [V_main_arg1]; rfl

theorem blk_eb (c : Dev nD) (t : Fin cfg0.N) : rowOf (iblk m c 2 t) = rowOf (m ((c : Thread nD τ).loc main_arg2)) := by
  obtain ⟨-, -, f1, f2, f3, f4, f5, f6, f7, f8, f9⟩ := idx_facts t
  funext k
  show V m c main_arg2 (((cfg0.win 2).blk t).view.emb (ix2 (0 : Fin 1) k)) = _
  have e : ((cfg0.win 2).blk t).view.emb (ix2 (0 : Fin 1) k) = ix2 (0 : Fin 1) k := funext fun a => Fin.ext (by
      match a with
      | ⟨0, _⟩ => show win0_2.index t (0 : Fin 2) * 1 + 1 * 0 = 0; omega
      | ⟨1, _⟩ => show win0_2.index t (1 : Fin 2) * 128 + 1 * k.val = k.val; omega)
  rw [e]
  rw [V_main_arg2]; rfl

theorem blk_w1 (c : Dev nD) (t : Fin cfg0.N) : wT (iblk m c 3 t) = matOf (m ((c : Thread nD τ).loc main_arg3)) := by
  obtain ⟨-, -, f1, f2, f3, f4, f5, f6, f7, f8, f9⟩ := idx_facts t
  funext k j
  show V m c main_v0 (((cfg0.win 3).blk t).view.emb (ix2 j k)) = _
  have e : ((cfg0.win 3).blk t).view.emb (ix2 j k) = ix2 j k := funext fun a => Fin.ext (by
      match a with
      | ⟨0, _⟩ => show win0_3.index t (0 : Fin 2) * 128 + 1 * j.val = j.val; omega
      | ⟨1, _⟩ => show win0_3.index t (1 : Fin 2) * 128 + 1 * k.val = k.val; omega)
  rw [e]
  exact V_w1 m c j k

theorem blk_b1 (c : Dev nD) (t : Fin cfg0.N) : rowOf (iblk m c 4 t) = vecOf (m ((c : Thread nD τ).loc main_arg4)) := by
  obtain ⟨-, -, f1, f2, f3, f4, f5, f6, f7, f8, f9⟩ := idx_facts t
  funext k
  show V m c main_v3 (((cfg0.win 4).blk t).view.emb (ix2 (0 : Fin 1) k)) = _
  have e : ((cfg0.win 4).blk t).view.emb (ix2 (0 : Fin 1) k) = ix2 (0 : Fin 1) k := funext fun a => Fin.ext (by
      match a with
      | ⟨0, _⟩ => show win0_4.index t (0 : Fin 2) * 1 + 1 * 0 = 0; omega
      | ⟨1, _⟩ => show win0_4.index t (1 : Fin 2) * 128 + 1 * k.val = k.val; omega)
  rw [e]
  exact V_b1 m c k

theorem blk_w2 (c : Dev nD) (t : Fin cfg0.N) : wT (iblk m c 5 t) = matOf (m ((c : Thread nD τ).loc main_arg5)) := by
  obtain ⟨-, -, f1, f2, f3, f4, f5, f6, f7, f8, f9⟩ := idx_facts t
  funext k j
  show V m c main_v1 (((cfg0.win 5).blk t).view.emb (ix2 j k)) = _
  have e : ((cfg0.win 5).blk t).view.emb (ix2 j k) = ix2 j k := funext fun a => Fin.ext (by
      match a with
      | ⟨0, _⟩ => show win0_5.index t (0 : Fin 2) * 128 + 1 * j.val = j.val; omega
      | ⟨1, _⟩ => show win0_5.index t (1 : Fin 2) * 128 + 1 * k.val = k.val; omega)
  rw [e]
  exact V_w2 m c j k

theorem blk_b2 (c : Dev nD) (t : Fin cfg0.N) : rowOf (iblk m c 6 t) = vecOf (m ((c : Thread nD τ).loc main_arg6)) := by
  obtain ⟨-, -, f1, f2, f3, f4, f5, f6, f7, f8, f9⟩ := idx_facts t
  funext k
  show V m c main_v4 (((cfg0.win 6).blk t).view.emb (ix2 (0 : Fin 1) k)) = _
  have e : ((cfg0.win 6).blk t).view.emb (ix2 (0 : Fin 1) k) = ix2 (0 : Fin 1) k := funext fun a => Fin.ext (by
      match a with
      | ⟨0, _⟩ => show win0_6.index t (0 : Fin 2) * 1 + 1 * 0 = 0; omega
      | ⟨1, _⟩ => show win0_6.index t (1 : Fin 2) * 128 + 1 * k.val = k.val; omega)
  rw [e]
  exact V_b2 m c k

theorem blk_w3 (c : Dev nD) (t : Fin cfg0.N) : wT (iblk m c 7 t) = matOf (m ((c : Thread nD τ).loc main_arg7)) := by
  obtain ⟨-, -, f1, f2, f3, f4, f5, f6, f7, f8, f9⟩ := idx_facts t
  funext k j
  show V m c main_v2 (((cfg0.win 7).blk t).view.emb (ix2 j k)) = _
  have e : ((cfg0.win 7).blk t).view.emb (ix2 j k) = ix2 j k := funext fun a => Fin.ext (by
      match a with
      | ⟨0, _⟩ => show win0_7.index t (0 : Fin 2) * 128 + 1 * j.val = j.val; omega
      | ⟨1, _⟩ => show win0_7.index t (1 : Fin 2) * 128 + 1 * k.val = k.val; omega)
  rw [e]
  exact V_w3 m c j k

theorem blk_b3 (c : Dev nD) (t : Fin cfg0.N) : rowOf (iblk m c 8 t) = vecOf (m ((c : Thread nD τ).loc main_arg8)) := by
  obtain ⟨-, -, f1, f2, f3, f4, f5, f6, f7, f8, f9⟩ := idx_facts t
  funext k
  show V m c main_v5 (((cfg0.win 8).blk t).view.emb (ix2 (0 : Fin 1) k)) = _
  have e : ((cfg0.win 8).blk t).view.emb (ix2 (0 : Fin 1) k) = ix2 (0 : Fin 1) k := funext fun a => Fin.ext (by
      match a with
      | ⟨0, _⟩ => show win0_8.index t (0 : Fin 2) * 1 + 1 * 0 = 0; omega
      | ⟨1, _⟩ => show win0_8.index t (1 : Fin 2) * 128 + 1 * k.val = k.val; omega)
  rw [e]
  exact V_b3 m c k

theorem blk_mu (c : Dev nD) (t : Fin cfg0.N) : rowOf (iblk m c 9 t) = colOf (m ((c : Thread nD τ).loc main_arg9)) := by
  obtain ⟨-, -, f1, f2, f3, f4, f5, f6, f7, f8, f9⟩ := idx_facts t
  funext k
  show V m c main_v6 (((cfg0.win 9).blk t).view.emb (ix2 (0 : Fin 1) k)) = _
  have e : ((cfg0.win 9).blk t).view.emb (ix2 (0 : Fin 1) k) = ix2 (0 : Fin 1) k := funext fun a => Fin.ext (by
      match a with
      | ⟨0, _⟩ => show win0_9.index t (0 : Fin 2) * 1 + 1 * 0 = 0; omega
      | ⟨1, _⟩ => show win0_9.index t (1 : Fin 2) * 128 + 1 * k.val = k.val; omega)
  rw [e]
  exact V_mu m c k

/-- Row p of x's block at point t is x at the row the result's block puts there. -/
theorem blk_x (c : Dev nD) (t : Fin cfg0.N) (p : Fin 8192) :
    iblk m c 0 t (ix2 p (0 : Fin 1)) = (m ((c : Thread nD τ).loc main_arg0)) (((cfg0.win 10).blk t).view.emb (ix2 p (0 : Fin 1))) := by
  obtain ⟨⟨g0, g1⟩, -⟩ := idx_facts t
  show V m c main_arg0 (((cfg0.win 0).blk t).view.emb (ix2 p (0 : Fin 1))) = _
  have e : ((cfg0.win 0).blk t).view.emb (ix2 p (0 : Fin 1)) = ((cfg0.win 10).blk t).view.emb (ix2 p (0 : Fin 1)) :=
    funext fun a => Fin.ext (by
      match a with
      | ⟨0, _⟩ => show win0_0.index t (0 : Fin 2) * 8192 + 1 * p.val = win0_10.index t (0 : Fin 2) * 8192 + 1 * p.val; omega
      | ⟨1, _⟩ => show win0_0.index t (1 : Fin 2) * 1 + 1 * 0 = win0_10.index t (1 : Fin 2) * 1 + 1 * 0; omega)
  rw [e, V_main_arg0]

/-! ## What a point writes back, the cover, and the array after the run -/

/-- The result array as one function of the arguments: the collapsed arrangement of every row. -/
abbrev result (c : Dev nD) : S262144x1.Idx → EReal :=
  arrFused (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))

/-- WHAT POINT t WRITES BACK is block t of that array. -/
theorem flushed_eq (c : Dev nD) (t : Fin cfg0.N) :
    (dats m 0 c).flushed 10 t = ((cfg0.win 10).blk t).view.read (Elt Ideal) (result m c) := by
  rw [Cert.KernelIdeal.Value.flushed10]
  funext j
  obtain ⟨p, z, rfl⟩ : ∃ (p : Fin 8192) (z : Fin 1), j = ix2 p z := ⟨j 0, j 1, eq_ix2 j⟩
  obtain rfl : z = 0 := Subsingleton.elim _ _
  show out0_10 (iblk m c 0 t) (iblk m c 1 t) (iblk m c 2 t) (iblk m c 3 t) (iblk m c 4 t) (iblk m c 5 t) (iblk m c 6 t) (iblk m c 7 t) (iblk m c 8 t) (iblk m c 9 t) (ix2 p (0 : Fin 1)) = result m c (((cfg0.win 10).blk t).view.emb (ix2 p (0 : Fin 1)))
  refine (out_at (iblk m c 0 t) (iblk m c 1 t) (iblk m c 2 t) (iblk m c 3 t) (iblk m c 4 t) (iblk m c 5 t) (iblk m c 6 t) (iblk m c 7 t) (iblk m c 8 t) (iblk m c 9 t) p).trans ?_
  rw [blk_x m c t p, blk_ew m c t, blk_eb m c t, blk_w1 m c t, blk_b1 m c t, blk_w2 m c t, blk_b2 m c t, blk_w3 m c t,
    blk_b3 m c t, blk_mu m c t]
  rfl

/-- An index of the array is in point t's block iff each coordinate is in the block's range on its axis. -/
theorem mem_blk (t : Fin cfg0.N) (i : S262144x1.Idx) :
    i ∈ ((cfg0.win 10).blk t).view.set ↔ ∀ a : Fin 2, win0_10.index t a * S8192x1.size a ≤ (i a).val ∧ (i a).val < win0_10.index t a * S8192x1.size a + S8192x1.size a := by
  show i ∈ ((View.whole main_v7).slice (win0_10.rect t)).set ↔ _
  rw [View.set_slice_whole, Rect.mem_set_unit]
  exact Iff.rfl

/-- THE BLOCKS COVER THE ARRAY: row r is in the block of point r / 8192. -/
theorem cover (i : S262144x1.Idx) : ∃ t : Fin cfg0.N, (cfg0.win 10).flush t = true ∧ i ∈ ((cfg0.win 10).blk t).view.set := by
  have hi0 : (i 0).val < 262144 := (i 0).isLt
  have hi1 : (i 1).val < 1 := (i 1).isLt
  have hN : cfg0.N = 32 := N_0
  let t : Fin cfg0.N := ⟨(i 0).val / 8192, by rw [hN]; omega⟩
  obtain ⟨-, ⟨g0, g1⟩, -⟩ := idx_facts t
  have ht : t.val = (i 0).val / 8192 := rfl
  refine ⟨t, flush0_10 t, ?_⟩
  rw [mem_blk]
  intro a
  match a with
  | ⟨0, _⟩ => show win0_10.index t (0 : Fin 2) * 8192 ≤ (i 0).val ∧ (i 0).val < win0_10.index t (0 : Fin 2) * 8192 + 8192; omega
  | ⟨1, _⟩ => show win0_10.index t (1 : Fin 2) * 1 ≤ (i 1).val ∧ (i 1).val < win0_10.index t (1 : Fin 2) * 1 + 1; omega

/-- THE ARRAY after the run. -/
theorem final (c : Dev nD) : (dats m 0 c).arrAt 10 cfg0.N = result m c :=
  (dats m 0 c).arrAt_eq_of_cover 10 (result m c) (fun t _ => flushed_eq m c t) cover

/-- The run re-posted: the result array at the collapsed arrangement of the arguments' rows, the arguments unchanged. -/
theorem run : θ_run defs (onTc (τ := τ) (main (F := Ideal))) ⟨m, fun _ => 0, ρ⟩ fun r => ∀ c : Dev nD,
      r.2.mem ((c : Thread nD τ).loc main_v7) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9) :=
  (θ_run defs _ _).mono (fun r h c => ⟨(h c).1.trans (final m c), (h c).2⟩) (Cert.KernelIdeal.Value.run_blocks m ρ)

end Cert.KernelIdeal.ArrValue

end
-- ==== Proof.Finite.lean ====
/-
  The precondition read back: every entry of every argument is a real.

  The printed precondition is the conjunction, argument by argument, of "all entries satisfy |x| < +∞" (an and-reduce of
  the elementwise comparison against the +∞ pattern).  An and-reduce that is 1 had a 1 at every entry; |x| < +∞ on the
  extended reals excludes both infinities, so the entry is a real.
-/
import proofs.«142796_g72937134620845_cont_sun_m_422_3_alg».proof.Pre_finite_inputs
import proofs.«142796_g72937134620845_cont_sun_m_422_3_alg».proof.Proof.LibReal
import Idealize.ShloMosaic.Lib.ReduceAll
import Idealize.ShloMosaic.Lib.Pipeline.Value
import Idealize.ShloMosaic.Lib.ValueIdx

noncomputable section

namespace Cert.Finite

open Idealize.ShloMosaic Idealize.ShloMosaic.ValueIdx Cert.LibReal

open Cert.Pre_finite_inputs in
/-- THE PRECONDITION READ BACK: if the printed predicate of the ten arguments is all ones, every entry of each is a real. -/
theorem reals_of_pre [Cert.Pre_finite_inputs.Facts] (a0 : FVec Ideal S262144x1 .f32) (a1 a2 : FVec Ideal S1x128 .f32)
    (a3 : FVec Ideal S128x128 .f32) (a4 : FVec Ideal S128 .f32) (a5 : FVec Ideal S128x128 .f32) (a6 : FVec Ideal S128 .f32)
    (a7 : FVec Ideal S128x128 .f32) (a8 : FVec Ideal S128 .f32) (a9 : FVec Ideal S128x1 .f32)
    (h : Cert.Pre_finite_inputs.fn (F := Ideal) a0 a1 a2 a3 a4 a5 a6 a7 a8 a9 = fun _ => 1#1) :
    (∀ i, IsReal (a0 i)) ∧ (∀ i, IsReal (a1 i)) ∧ (∀ i, IsReal (a2 i)) ∧ (∀ i, IsReal (a3 i)) ∧ (∀ i, IsReal (a4 i))
      ∧ (∀ i, IsReal (a5 i)) ∧ (∀ i, IsReal (a6 i)) ∧ (∀ i, IsReal (a7 i)) ∧ (∀ i, IsReal (a8 i)) ∧ (∀ i, IsReal (a9 i)) := by
  have h0 := congrFun h ix0
  unfold Cert.Pre_finite_inputs.fn Cert.Pre_finite_inputs.fn_part1 Cert.Pre_finite_inputs.fn_part2 at h0
  dsimp only at h0
  obtain ⟨h0, e9⟩ := IntOp.andi_eq_one.mp h0
  obtain ⟨h0, e8⟩ := IntOp.andi_eq_one.mp h0
  obtain ⟨h0, e7⟩ := IntOp.andi_eq_one.mp h0
  obtain ⟨h0, e6⟩ := IntOp.andi_eq_one.mp h0
  obtain ⟨h0, e5⟩ := IntOp.andi_eq_one.mp h0
  obtain ⟨h0, e4⟩ := IntOp.andi_eq_one.mp h0
  obtain ⟨h0, e3⟩ := IntOp.andi_eq_one.mp h0
  obtain ⟨h0, e2⟩ := IntOp.andi_eq_one.mp h0
  obtain ⟨e0, e1⟩ := IntOp.andi_eq_one.mp h0
  exact ⟨isReal_of_all a0 _ _ _ e0, isReal_of_all a1 _ _ _ e1, isReal_of_all a2 _ _ _ e2, isReal_of_all a3 _ _ _ e3,
    isReal_of_all a4 _ _ _ e4, isReal_of_all a5 _ _ _ e5, isReal_of_all a6 _ _ _ e6, isReal_of_all a7 _ _ _ e7,
    isReal_of_all a8 _ _ _ e8, isReal_of_all a9 _ _ _ e9⟩

end Cert.Finite

end
-- ==== Proof.lean ====
/-
  The kernel and its reference compute one function over the reals.

  Each of the 262144 rows carries a scalar x.  The reference encodes it softly over 128 bins, ew k * x + eb k, passes
  the encoding through three affine layers (max(·, 0) after the first two) and returns the softmax of the logits paired
  with the bin centres, Σ_k (e k / s) * mu k, where e k = exp (h3 k - max h3) and s = Σ_k e k.  The kernel works on
  blocks of 8192 rows and rearranges twice: layer 1 of an affine encoding is itself affine in x, x * (ew · W1 k) +
  (eb · W1 k + b1 k), so the encoding is never formed; and the result is (Σ_k e k * mu k) / s, one division per row.
  Matrix products, lane sums and the host's reductions are exact sums on the extended reals, so the two programs
  differ only by those two rearrangements.  Both are identities of real arithmetic (distributivity; s is a positive
  real) and fail at infinities, so the precondition is used: every entry of every argument is a real, hence so is every
  intermediate value.

  The frames of the two kernel programs are the generated ones; the reference's frame is its generated run with the
  result dropped; the idealization rewrote nothing, so there is nothing to preserve.
-/
import proofs.«142796_g72937134620845_cont_sun_m_422_3_alg».proof.Defs
import proofs.«142796_g72937134620845_cont_sun_m_422_3_alg».proof.Proof.Gen.Kernel
import proofs.«142796_g72937134620845_cont_sun_m_422_3_alg».proof.Proof.Gen.Kernel.Skeleton
import proofs.«142796_g72937134620845_cont_sun_m_422_3_alg».proof.Proof.Gen.Kernel.Launch
import proofs.«142796_g72937134620845_cont_sun_m_422_3_alg».proof.Proof.Gen.Kernel.Points
import proofs.«142796_g72937134620845_cont_sun_m_422_3_alg».proof.Proof.Gen.Kernel.Frame
import proofs.«142796_g72937134620845_cont_sun_m_422_3_alg».proof.Proof.Gen.KernelIdeal
import proofs.«142796_g72937134620845_cont_sun_m_422_3_alg».proof.Proof.Gen.KernelIdeal.Skeleton
import proofs.«142796_g72937134620845_cont_sun_m_422_3_alg».proof.Proof.Gen.KernelIdeal.Launch
import proofs.«142796_g72937134620845_cont_sun_m_422_3_alg».proof.Proof.Gen.KernelIdeal.Points
import proofs.«142796_g72937134620845_cont_sun_m_422_3_alg».proof.Proof.Gen.KernelIdeal.Frame
import proofs.«142796_g72937134620845_cont_sun_m_422_3_alg».proof.Proof.Gen.ReferenceIdeal
import proofs.«142796_g72937134620845_cont_sun_m_422_3_alg».proof.Proof.Gen.Pre_finite_inputs
import proofs.«142796_g72937134620845_cont_sun_m_422_3_alg».proof.Proof.Gen.KernelIdeal.Value
import proofs.«142796_g72937134620845_cont_sun_m_422_3_alg».proof.Proof.Gen.ReferenceIdeal.Run
import proofs.«142796_g72937134620845_cont_sun_m_422_3_alg».proof.Proof.Gen.ReferenceIdeal.Read
import proofs.«142796_g72937134620845_cont_sun_m_422_3_alg».proof.Proof.LibReal
import proofs.«142796_g72937134620845_cont_sun_m_422_3_alg».proof.Proof.RowSpec
import proofs.«142796_g72937134620845_cont_sun_m_422_3_alg».proof.Proof.RefValue
import proofs.«142796_g72937134620845_cont_sun_m_422_3_alg».proof.Proof.KerRow
import proofs.«142796_g72937134620845_cont_sun_m_422_3_alg».proof.Proof.KerArr
import proofs.«142796_g72937134620845_cont_sun_m_422_3_alg».proof.Proof.Finite
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

/-- From memories agreeing on the arguments, the kernel's run ends with the result array at the collapsed arrangement of
    every row and the reference's at the plain arrangement; under the precondition all entries are reals, and on reals
    the two arrangements are one array. -/
theorem algebraic : Cert.algebraic_KernelIdeal_ReferenceIdeal := by
  intro m ρ m' ρ' hpre hagree
  refine ⟨fun c => Cert.KernelIdeal.ArrValue.result m c, Cert.KernelIdeal.ArrValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.RefValue.res_eq]
  obtain ⟨a0, a1, a2, a3, a4, a5, a6, a7, a8, a9⟩ := hagree c
  rw [a0, a1, a2, a3, a4, a5, a6, a7, a8, a9]
  obtain ⟨r0, r1, r2, r3, r4, r5, r6, r7, r8, r9⟩ := Cert.Finite.reals_of_pre _ _ _ _ _ _ _ _ _ _ (hpre c)
  exact Cert.RowSpec.arrPlain_eq_arrFused _ _ _ _ _ _ _ _ _ _ r0 r1 r2 r3 r4 r5 r6 r7 r8 r9

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
